-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x64x128x128 : Shape := ⟨5, ![4, 16, 64, 128, 128]⟩
abbrev S4x64x128x128 : Shape := ⟨4, ![4, 64, 128, 128]⟩
abbrev S_ : Shape := ⟨0, ![]⟩

class Facts : Prop where
  bcast_S_S4x16x64x128x128 : S_.BroadcastsInDim S4x16x64x128x128 (![] : Fin 0 → Fin S4x16x64x128x128.rank)
  reducesTo_S4x16x64x128x128_S_d0_1_2_3_4 : S4x16x64x128x128.ReducesTo [0, 1, 2, 3, 4] S_
  h_S_ : 0 < S_.numel
  bcast_S_S4x64x128x128 : S_.BroadcastsInDim S4x64x128x128 (![] : Fin 0 → Fin S4x64x128x128.rank)
  reducesTo_S4x64x128x128_S_d0_1_2_3 : S4x64x128x128.ReducesTo [0, 1, 2, 3] S_

variable [Facts]

def fn {F : FTy → Type} [FloatOps F] (main_arg0 : FVec F S4x16x64x128x128 .f32) (main_arg1 : IVec S4x64x128x128 32) : IVec S_ 1 :=
  let main_v0 : FVec F S4x16x64x128x128 .f32 := Host.absf main_arg0
  let main_cst : FVec F S_ .f32 := constant S_ .f32 0x7F800000#32
  let main_v1 : FVec F S4x16x64x128x128 .f32 := broadcastInDim S4x16x64x128x128 ![] bcast_S_S4x16x64x128x128 main_cst
  let main_v2 : IVec S4x16x64x128x128 1 := cmpf .olt main_v0 main_v1
  let main_c : IVec S_ 1 := constantI S_ 1 1#1
  let main_v3 : IVec S_ 1 := (fun x v => Host.reduce IntOp.andi x v reducesTo_S4x16x64x128x128_S_d0_1_2_3_4 h_S_) main_v2 main_c
  let main_c_0 : IVec S_ 32 := constantI S_ 32 0#32
  let main_v4 : IVec S4x64x128x128 32 := broadcastInDim S4x64x128x128 ![] bcast_S_S4x64x128x128 main_c_0
  let main_v5 : IVec S4x64x128x128 1 := cmpi .sge main_arg1 main_v4
  let main_c_1 : IVec S_ 1 := constantI S_ 1 1#1
  let main_v6 : IVec S_ 1 := (fun x v => Host.reduce IntOp.andi x v reducesTo_S4x64x128x128_S_d0_1_2_3 h_S_) main_v5 main_c_1
  let main_v7 : IVec S_ 1 := andi main_v3 main_v6
  let main_c_2 : IVec S_ 32 := constantI S_ 32 15#32
  let main_v8 : IVec S4x64x128x128 32 := broadcastInDim S4x64x128x128 ![] bcast_S_S4x64x128x128 main_c_2
  let main_v9 : IVec S4x64x128x128 1 := cmpi .sle main_arg1 main_v8
  let main_c_3 : IVec S_ 1 := constantI S_ 1 1#1
  let main_v10 : IVec S_ 1 := (fun x v => Host.reduce IntOp.andi x v reducesTo_S4x64x128x128_S_d0_1_2_3 h_S_) main_v9 main_c_3
  let main_v11 : IVec S_ 1 := andi main_v7 main_v10
  main_v11
-- ==== Kernel.lean ====
abbrev S4x16x64x128x128 : Shape := ⟨5, ![4, 16, 64, 128, 128]⟩
abbrev S4x64x128x128 : Shape := ⟨4, ![4, 64, 128, 128]⟩
abbrev S4x1x128 : Shape := ⟨3, ![4, 1, 128]⟩
abbrev S1x16x4x128x128 : Shape := ⟨5, ![1, 16, 4, 128, 128]⟩
abbrev S1x4x128x128 : Shape := ⟨4, ![1, 4, 128, 128]⟩
abbrev S1x1x128 : Shape := ⟨3, ![1, 1, 128]⟩
abbrev S16x4x128x128 : Shape := ⟨4, ![16, 4, 128, 128]⟩
abbrev S4x128x128 : Shape := ⟨3, ![4, 128, 128]⟩
abbrev S4x128 : Shape := ⟨2, ![4, 128]⟩
abbrev S4x128x1 : Shape := ⟨3, ![4, 128, 1]⟩
abbrev S4x1 : Shape := ⟨2, ![4, 1]⟩
abbrev S4x1x1 : Shape := ⟨3, ![4, 1, 1]⟩
abbrev S1x1 : Shape := ⟨2, ![1, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4x16x64x128x128, .f32⟩
  | .hbm, ⟨1, _⟩ => ⟨S4x64x128x128, .i32⟩
  | .hbm, ⟨2, _⟩ => ⟨S4x1x128, .f32⟩
  | .hbm, ⟨3, _⟩ => ⟨S4x1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x16x4x128x128, .f32⟩
  | .local _ .vmem, ⟨1, _⟩ => ⟨S1x16x4x128x128, .f32⟩
  | .local _ .vmem, ⟨2, _⟩ => ⟨S1x4x128x128, .i32⟩
  | .local _ .vmem, ⟨3, _⟩ => ⟨S1x4x128x128, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S4x16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  inb_S1x16x4x128x128_S1x16x4x128x128_0_0_0_0_0 : ∀ a, (![0, 0, 0, 0, 0] : Fin 5 → Nat) a + S1x16x4x128x128.size a ≤ S1x16x4x128x128.size a
  h_S1x16x4x128x128 : 0 < S1x16x4x128x128.numel
  shapeCasts_S1x16x4x128x128_S16x4x128x128 : S1x16x4x128x128.ShapeCasts S16x4x128x128
  inb_S1x4x128x128_S1x4x128x128_0_0_0_0 : ∀ a, (![0, 0, 0, 0] : Fin 4 → Nat) a + S1x4x128x128.size a ≤ S1x4x128x128.size a
  h_S1x4x128x128 : 0 < S1x4x128x128.numel
  shapeCasts_S1x4x128x128_S4x128x128 : S1x4x128x128.ShapeCasts S4x128x128
  iota_S16x4x128x128_d0_w32 : S16x4x128x128.Iotas .tc 32 [0]
  reduces_S16x4x128x128_S4x128x128 : S16x4x128x128.Reduces [0] S4x128x128
  shapeCasts_S4x128x128_S1x4x128x128 : S4x128x128.ShapeCasts S1x4x128x128
  broadcasts_S1x4x128x128_S16x4x128x128 : S1x4x128x128.Broadcasts S16x4x128x128
  reduces_S4x128x128_S4x128 : S4x128x128.Reduces [2] S4x128
  shapeCasts_S4x128_S4x128x1 : S4x128.ShapeCasts S4x128x1
  reduces_S4x128x1_S4x1 : S4x128x1.Reduces [1] S4x1
  shapeCasts_S4x1_S4x1x1 : S4x1.ShapeCasts S4x1x1
  reduces_S4x1x1_S1x1 : S4x1x1.Reduces [0] S1x1
  inpos_S1x1_p0_0 : ∀ a, (![0, 0] : Fin 2 → Nat) a < S1x1.size a
  shapeCasts_S1x1x128_S1x1x128 : S1x1x128.ShapeCasts S1x1x128
  reducesTo_S4x1x128_S_d0_1_2 : S4x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x4x128x128.size a ≤ S4x16x64x128x128.size a
  hwx0_0 : ∀ i : grid0.Coords, EltTy.bits .f32 = 32 ∨ (Rect.block (s := S4x16x64x128x128) S1x16x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x128x128.size a ≤ S4x64x128x128.size a
  hwx0_1 : ∀ i : grid0.Coords, EltTy.bits .i32 = 32 ∨ (Rect.block (s := S4x64x128x128) S1x4x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x128.size a
  hwx0_3 : ∀ i : grid0.Coords, EltTy.bits .f32 = 32 ∨ (Rect.block (s := S4x1x128) S1x1x128.size (cc0_transform_3 i) (hinb0_3 i)).WholeWords (EltTy.packing .f32)

variable [Facts₀]

abbrev win0_0 : Pipeline.Window sig grid0 :=
  Pipeline.Window.ofSpec (Memref.whole main_arg0) S1x16x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x64x128x128 : Shape := ⟨5, ![4, 16, 64, 128, 128]⟩
abbrev S4x64x128x128 : Shape := ⟨4, ![4, 64, 128, 128]⟩
abbrev S4x64x128x128x16 : Shape := ⟨5, ![4, 64, 128, 128, 16]⟩
abbrev S4194304x16 : Shape := ⟨2, ![4194304, 16]⟩
abbrev S4194304 : Shape := ⟨1, ![4194304]⟩
abbrev S4194304x1 : Shape := ⟨2, ![4194304, 1]⟩
abbrev S_ : Shape := ⟨0, ![]⟩
abbrev S4194304x1x1 : Shape := ⟨3, ![4194304, 1, 1]⟩
abbrev S1 : Shape := ⟨1, ![1]⟩
abbrev S1x1x1 : Shape := ⟨3, ![1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S4x16x64x128x128, .f32⟩
  | .hbm, ⟨1, _⟩ => ⟨S4x64x128x128, .i32⟩
  | .hbm, ⟨2, _⟩ => ⟨S4x64x128x128x16, .f32⟩
  | .hbm, ⟨3, _⟩ => ⟨S4194304x16, .f32⟩
  | .hbm, ⟨4, _⟩ => ⟨S4194304, .i32⟩
  | .hbm, ⟨5, _⟩ => ⟨S4194304x1, .i32⟩
  | .hbm, ⟨6, _⟩ => ⟨S_, .i32⟩
  | .hbm, ⟨7, _⟩ => ⟨S4194304x1, .i32⟩
  | .hbm, ⟨8, _⟩ => ⟨S4194304x1, .i1⟩
  | .hbm, ⟨9, _⟩ => ⟨S_, .i32⟩
  | .hbm, ⟨10, _⟩ => ⟨S4194304x1, .i32⟩
  | .hbm, ⟨11, _⟩ => ⟨S4194304x1, .i32⟩
  | .hbm, ⟨12, _⟩ => ⟨S4194304x1, .i32⟩
  | .hbm, ⟨13, _⟩ => ⟨S4194304x1x1, .i32⟩
  | .hbm, ⟨14, _⟩ => ⟨S1, .i32⟩
  | .hbm, ⟨15, _⟩ => ⟨S_, .i32⟩
  | .hbm, ⟨16, _⟩ => ⟨S4194304x1x1, .i32⟩
  | .hbm, ⟨17, _⟩ => ⟨S4194304x1x1, .i1⟩
  | .hbm, ⟨18, _⟩ => ⟨S1x1x1, .i32⟩
  | .hbm, ⟨19, _⟩ => ⟨S4194304x1x1, .i32⟩
  | .hbm, ⟨20, _⟩ => ⟨S4194304x1x1, .i1⟩
  | .hbm, ⟨21, _⟩ => ⟨S4194304x1x1, .i1⟩
  | .hbm, ⟨22, _⟩ => ⟨S_, .i1⟩
  | .hbm, ⟨23, _⟩ => ⟨S4194304x1, .i1⟩
  | .hbm, ⟨24, _⟩ => ⟨S4194304x1, .f32⟩
  | .hbm, ⟨25, _⟩ => ⟨S_, .f32⟩
  | .hbm, ⟨26, _⟩ => ⟨S4194304x1, .f32⟩
  | .hbm, ⟨27, _⟩ => ⟨S4194304x1, .f32⟩
  | .hbm, ⟨28, _⟩ => ⟨S4194304, .f32⟩
  | .hbm, ⟨29, _⟩ => ⟨S_, .f32⟩
  | .hbm, ⟨30, _⟩ => ⟨S4194304, .f32⟩
  | .hbm, ⟨31, _⟩ => ⟨S4194304, .f32⟩
  | .hbm, ⟨32, _⟩ => ⟨S_, .f32⟩
  | .hbm, ⟨33, _⟩ => ⟨S4194304, .f32⟩
  | .hbm, ⟨34, _⟩ => ⟨S4194304, .f32⟩
  | .hbm, ⟨35, _⟩ => ⟨S_, .f32⟩
  | .hbm, ⟨36, _⟩ => ⟨S4194304, .f32⟩
  | .hbm, ⟨37, _⟩ => ⟨S_, .f32⟩
  | .hbm, ⟨38, _⟩ => ⟨S4194304, .f32⟩
  | .hbm, ⟨39, _⟩ => ⟨S4194304, .f32⟩
  | .hbm, ⟨40, _⟩ => ⟨S4194304x1, .f32⟩
  | .hbm, ⟨41, _⟩ => ⟨S4194304x16, .f32⟩
  | .hbm, ⟨42, _⟩ => ⟨S4194304x16, .f32⟩
  | .hbm, ⟨43, _⟩ => ⟨S4194304x16, .f32⟩
  | .hbm, ⟨44, _⟩ => ⟨S_, .f32⟩
  | .hbm, ⟨45, _⟩ => ⟨S4194304, .f32⟩
  | .hbm, ⟨46, _⟩ => ⟨S4194304x1, .f32⟩
  | .hbm, ⟨47, _⟩ => ⟨S4194304x1, .f32⟩
  | .hbm, ⟨48, _⟩ => ⟨S4194304x16, .f32⟩
  | .hbm, ⟨49, _⟩ => ⟨S4194304x16, .f32⟩
  | .hbm, ⟨50, _⟩ => ⟨S4194304x1, .i32⟩
  | .hbm, ⟨51, _⟩ => ⟨S_, .i32⟩
  | .hbm, ⟨52, _⟩ => ⟨S4194304x1, .i32⟩
  | .hbm, ⟨53, _⟩ => ⟨S4194304x1, .i1⟩
  | .hbm, ⟨54, _⟩ => ⟨S_, .i32⟩
  | .hbm, ⟨55, _⟩ => ⟨S4194304x1, .i32⟩
  | .hbm, ⟨56, _⟩ => ⟨S4194304x1, .i32⟩
  | .hbm, ⟨57, _⟩ => ⟨S4194304x1, .i32⟩
  | .hbm, ⟨58, _⟩ => ⟨S4194304x1x1, .i32⟩
  | .hbm, ⟨59, _⟩ => ⟨S1, .i32⟩
  | .hbm, ⟨60, _⟩ => ⟨S_, .i32⟩
  | .hbm, ⟨61, _⟩ => ⟨S4194304x1x1, .i32⟩
  | .hbm, ⟨62, _⟩ => ⟨S4194304x1x1, .i1⟩
  | .hbm, ⟨63, _⟩ => ⟨S1x1x1, .i32⟩
  | .hbm, ⟨64, _⟩ => ⟨S4194304x1x1, .i32⟩
  | .hbm, ⟨65, _⟩ => ⟨S4194304x1x1, .i1⟩
  | .hbm, ⟨66, _⟩ => ⟨S4194304x1x1, .i1⟩
  | .hbm, ⟨67, _⟩ => ⟨S_, .i1⟩
  | .hbm, ⟨68, _⟩ => ⟨S4194304x1, .i1⟩
  | .hbm, ⟨69, _⟩ => ⟨S4194304x1, .f32⟩
  | .hbm, ⟨70, _⟩ => ⟨S_, .f32⟩
  | .hbm, ⟨71, _⟩ => ⟨S4194304x1, .f32⟩
  | .hbm, ⟨72, _⟩ => ⟨S4194304x1, .f32⟩
  | .hbm, ⟨73, _⟩ => ⟨S4194304, .f32⟩
  | .hbm, ⟨74, _⟩ => ⟨S4194304, .f32⟩
  | .hbm, ⟨75, _⟩ => ⟨S4194304, .f32⟩
  | .hbm, ⟨76, _⟩ => ⟨S_, .f32⟩
  | .hbm, ⟨77, _⟩ => ⟨S_, .f32⟩
  | .hbm, ⟨78, _⟩ => ⟨S4194304, .f32⟩
  | .hbm, ⟨79, _⟩ => ⟨S4194304, .f32⟩
  | .hbm, ⟨80, _⟩ => ⟨S_, .f32⟩
  | .hbm, ⟨81, _⟩ => ⟨S_, .f32⟩
  | _, _ => ⟨S4x16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_call1_cst : Ref sig .tc := ⟨.hbm, 35, rfl⟩
abbrev main_call1_v0 : Ref sig .tc := ⟨.hbm, 36, rfl⟩
abbrev main_call1_cst_0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_cst_1 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_v10 : Ref sig .tc := ⟨.hbm, 49, rfl⟩
abbrev main_v11 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_cst_1 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_cst_2 : Ref sig .tc := ⟨.hbm, 80, rfl⟩
abbrev main_v19 : Ref sig .tc := ⟨.hbm, 81, rfl⟩

abbrev nD : Nat := 1
abbrev τ : Topo := Topo.v7x

variable {F : FTy → Type} [FloatOps F]

class Facts₀ : Prop where
  transposes_S4x16x64x128x128_S4x64x128x128x16_0_2_3_4_1 : S4x16x64x128x128.Transposes [0, 2, 3, 4, 1] S4x64x128x128x16
  shapeCasts_S4x64x128x128x16_S4194304x16 : S4x64x128x128x16.ShapeCasts S4194304x16
  shapeCasts_S4x64x128x128_S4194304 : S4x64x128x128.ShapeCasts S4194304
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  h_S_ : 0 < S_.numel
  shapeCasts_S4194304x1_S4194304 : S4194304x1.ShapeCasts S4194304
  bcast_S_S4194304 : S_.BroadcastsInDim S4194304 (![] : Fin 0 → Fin S4194304.rank)
  reducesTo_S4194304x16_S4194304_d1 : S4194304x16.ReducesTo [1] S4194304
  bcast_S4194304x1_S4194304x16_0_1 : S4194304x1.BroadcastsInDim S4194304x16 (![0, 1] : Fin 2 → Fin S4194304x16.rank)
  reducesTo_S4194304_S_d0 : S4194304.ReducesTo [0] S_
  gather_S4194304x16_S4194304x1x1_S4194304x1_n_1_0_0_1_2_11_wf : GatherDims.WF S4194304x16 S4194304x1x1 S4194304x1 [] [1] [0] [1] [0] 2 ![1, 1]

variable [Facts₀]

def gather_S4194304x16_S4194304x1x1_S4194304x1_n_1_0_0_1_2_11 : GatherDims S4194304x16 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x16_S4194304x1x1_S4194304x1_n_1_0_0_1_2_11_wf

class Facts : Prop extends Facts₀ where

variable [Facts]
-- ==== Proof.KernelPieces.lean ====
/-
  What each control case of the kernel body leaves in the two accumulator blocks, as values.

  The body adds, to each of the two [1,1,128] accumulator blocks, the tile's scalar sum broadcast over the lanes.
  At the first depth tile of a batch entry (case A) it first stores zeros and reads them back, so the block ends at
  zeros plus the tile's sum; at every other tile (case B) it ends at what the tile before left plus the tile's sum.
-/
import proofs.«428549_j26766236189461_3_alg».proof.Proof.Gen.KernelIdeal.Frame
import Idealize.ShloMosaic.Lib.Pipeline.Value

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

/-- The all-zero offsets of a rank-3 block, however the zeros are spelt. -/
private theorem hz3 : (![0, 0, 0] : Fin 3 → Nat) = fun _ => 0 := funext fun a => by fin_cases a <;> rfl

/-- The all-zero offsets of a rank-4 block. -/
private theorem hz4 : (![0, 0, 0, 0] : Fin 4 → Nat) = fun _ => 0 := funext fun a => by fin_cases a <;> rfl

/-- The all-zero offsets of a rank-5 block. -/
private theorem hz5 : (![0, 0, 0, 0, 0] : Fin 5 → Nat) = fun _ => 0 := funext fun a => by fin_cases a <;> rfl

/-- Case A, the loss accumulator: zeros plus the tile's loss sum on every lane. -/
theorem piece_A_2 (c : Dev nD) (i : grid0.Coords) (arg2 : Memref sig .tc .vmem S1x16x4x128x128 .f32) (harg2 : arg2.IsWhole) (arg3 : Memref sig .tc .vmem S1x4x128x128 .i32) (harg3 : arg3.IsWhole) (arg4 : Memref sig .tc .vmem S1x1x128 .f32) (harg4 : arg4.IsWhole) (arg5 : Memref sig .tc .vmem S1x1x128 .f32) (harg5 : arg5.IsWhole) (hc0 : cond0_0 i)
    (x0 : Vec F S1x16x4x128x128 .f32) (x1 : Vec F S1x4x128x128 .i32) :
    out0_A_2 c i arg2 harg2 arg3 harg3 arg4 harg4 arg5 harg5 hc0 x0 x1 = k0_pay1 (k0_pay10 x0 x1) (k0_pay3 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  -- the later store covers the whole block, so the block ends at its payload; the accumulator value that payload
  -- read is what the earlier store left over the whole block: the zeros
  rw [View.canon_cons_unit_zero (S := S1x1x128) hz3, View.readCov_unit_zero (S := S1x1x128) _ hz3]
  -- each input is read over its whole block, which gives back the block's contents
  simp only [View.readAt_eq_ld, harg2.read_unread, harg3.read_unread, harg4.read_unread, harg5.read_unread,
    View.ld_unit_zero (S := S1x16x4x128x128) hz5, View.ld_unit_zero (S := S1x4x128x128) hz4,
    View.ld_unit_zero (S := S1x1x128) hz3]

/-- Case A, the weight accumulator: zeros plus the tile's weight sum on every lane. -/
theorem piece_A_3 (c : Dev nD) (i : grid0.Coords) (arg2 : Memref sig .tc .vmem S1x16x4x128x128 .f32) (harg2 : arg2.IsWhole) (arg3 : Memref sig .tc .vmem S1x4x128x128 .i32) (harg3 : arg3.IsWhole) (arg4 : Memref sig .tc .vmem S1x1x128 .f32) (harg4 : arg4.IsWhole) (arg5 : Memref sig .tc .vmem S1x1x128 .f32) (harg5 : arg5.IsWhole) (hc0 : cond0_0 i)
    (x0 : Vec F S1x16x4x128x128 .f32) (x1 : Vec F S1x4x128x128 .i32) :
    out0_A_3 c i arg2 harg2 arg3 harg3 arg4 harg4 arg5 harg5 hc0 x0 x1 = k0_pay2 (k0_pay9 x0 x1) (k0_pay4 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  -- the later store covers the whole block, so the block ends at its payload; the accumulator value that payload
  -- read is what the earlier store left over the whole block: the zeros
  rw [View.canon_cons_unit_zero (S := S1x1x128) hz3, View.readCov_unit_zero (S := S1x1x128) _ hz3]
  -- each input is read over its whole block, which gives back the block's contents
  simp only [View.readAt_eq_ld, harg2.read_unread, harg3.read_unread, harg4.read_unread, harg5.read_unread,
    View.ld_unit_zero (S := S1x16x4x128x128) hz5, View.ld_unit_zero (S := S1x4x128x128) hz4,
    View.ld_unit_zero (S := S1x1x128) hz3]

/-- Case B, the loss accumulator: what the tile before left plus the tile's loss sum on every lane. -/
theorem piece_B_2 (c : Dev nD) (i : grid0.Coords) (arg2 : Memref sig .tc .vmem S1x16x4x128x128 .f32) (harg2 : arg2.IsWhole) (arg3 : Memref sig .tc .vmem S1x4x128x128 .i32) (harg3 : arg3.IsWhole) (arg4 : Memref sig .tc .vmem S1x1x128 .f32) (harg4 : arg4.IsWhole) (arg5 : Memref sig .tc .vmem S1x1x128 .f32) (harg5 : arg5.IsWhole) (hc0 : ¬cond0_0 i)
    (x0 : Vec F S1x16x4x128x128 .f32) (x1 : Vec F S1x4x128x128 .i32) (xo2 xo3 : Vec F S1x1x128 .f32) :
    out0_B_2 c i arg2 harg2 arg3 harg3 arg4 harg4 arg5 harg5 hc0 x0 x1 xo2 xo3 = k0_pay1 (k0_pay10 x0 x1) xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  -- the one store covers the whole block, so the block ends at its payload
  rw [View.canon_unit_zero (S := S1x1x128) hz3]
  -- the inputs and the accumulator are read over their whole blocks, which gives back their contents
  simp only [View.readAt_eq_ld, harg2.read_unread, harg3.read_unread, harg4.read_unread, harg5.read_unread,
    View.ld_unit_zero (S := S1x16x4x128x128) hz5, View.ld_unit_zero (S := S1x4x128x128) hz4,
    View.ld_unit_zero (S := S1x1x128) hz3]

/-- Case B, the weight accumulator: what the tile before left plus the tile's weight sum on every lane. -/
theorem piece_B_3 (c : Dev nD) (i : grid0.Coords) (arg2 : Memref sig .tc .vmem S1x16x4x128x128 .f32) (harg2 : arg2.IsWhole) (arg3 : Memref sig .tc .vmem S1x4x128x128 .i32) (harg3 : arg3.IsWhole) (arg4 : Memref sig .tc .vmem S1x1x128 .f32) (harg4 : arg4.IsWhole) (arg5 : Memref sig .tc .vmem S1x1x128 .f32) (harg5 : arg5.IsWhole) (hc0 : ¬cond0_0 i)
    (x0 : Vec F S1x16x4x128x128 .f32) (x1 : Vec F S1x4x128x128 .i32) (xo2 xo3 : Vec F S1x1x128 .f32) :
    out0_B_3 c i arg2 harg2 arg3 harg3 arg4 harg4 arg5 harg5 hc0 x0 x1 xo2 xo3 = k0_pay2 (k0_pay9 x0 x1) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  -- the one store covers the whole block, so the block ends at its payload
  rw [View.canon_unit_zero (S := S1x1x128) hz3]
  -- the inputs and the accumulator are read over their whole blocks, which gives back their contents
  simp only [View.readAt_eq_ld, harg2.read_unread, harg3.read_unread, harg4.read_unread, harg5.read_unread,
    View.ld_unit_zero (S := S1x16x4x128x128) hz5, View.ld_unit_zero (S := S1x4x128x128) hz4,
    View.ld_unit_zero (S := S1x1x128) hz3]

end Cert.KernelIdeal.Pieces

end
-- ==== Proof.KernelSumPay.lean ====
/-
  The two accumulator updates of the kernel body, read at a lane, at the ideal values.

  The body reduces a [4,128,128] tile to a scalar one axis at a time (lanes, then sublanes, then depth), broadcasts
  the scalar over the 128 lanes of the accumulator block and adds it to what the block held. Read at any lane the
  update is the old entry plus the sum of the tile's entries.
-/
import proofs.«428549_j26766236189461_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SumPay

open Idealize.ShloMosaic Idealize.ShloMosaic.ValueIdx Cert.KernelIdeal Cert.KernelIdeal.Gen

/-! ## The inserted index of each one-axis sum, by coordinates -/

/-- Over an index of the [1,1] result, the index of the [4,1,1] source with depth coordinate `d` is `(d, 0, 0)`:
    the two kept axes have extent one, so their coordinates are zero. -/
private theorem lift_depth (h : S4x1x1.Reduces [0] S1x1) (j : S1x1.Idx) (d : Fin 4) :
    h.lift j d = ix3 d (0 : Fin 1) (0 : Fin 1) := by
  funext c
  match c with
  | ⟨0, _⟩ => exact Fin.ext rfl
  | ⟨1, _⟩ =>
    refine Fin.ext ?_
    have h0 : (j 0).val < 1 := (j 0).isLt
    show (j 0).val = 0
    omega
  | ⟨2, _⟩ =>
    refine Fin.ext ?_
    have h1 : (j 1).val < 1 := (j 1).isLt
    show (j 1).val = 0
    omega

/-- Over the index `(d, u)` of the [4,1] result, the index of the [4,128,1] source with sublane coordinate `r` is
    `(d, r, u)`. -/
private theorem lift_sublane (h : S4x128x1.Reduces [1] S4x1) (d : Fin 4) (u : Fin 1) (r : Fin 128) :
    h.lift (ix2 d u) r = ix3 d r u := by
  funext c
  match c with
  | ⟨0, _⟩ => exact Fin.ext rfl
  | ⟨1, _⟩ => exact Fin.ext rfl
  | ⟨2, _⟩ => exact Fin.ext rfl

/-- Over the index `(d, r)` of the [4,128] result, the index of the [4,128,128] source with lane coordinate `w` is
    `(d, r, w)`. -/
private theorem lift_lane (h : S4x128x128.Reduces [2] S4x128) (d : Fin 4) (r : Fin 128) (w : Fin 128) :
    h.lift (ix2 d r) w = ix3 d r w := by
  funext c
  match c with
  | ⟨0, _⟩ => exact Fin.ext rfl
  | ⟨1, _⟩ => exact Fin.ext rfl
  | ⟨2, _⟩ => exact Fin.ext rfl

/-! ## Each one-axis sum read at an index -/

/-- The sum over depth of a [4,1,1] vector, at either index of the [1,1] result. -/
private theorem sum_depth (x : FVec Ideal S4x1x1 .f32) (j : S1x1.Idx) :
    multiReduction .add [0] S1x1 x 0x00000000#32 reduces_S4x1x1_S1x1 (.inl rfl) rfl j
      = ∑ d : Fin 4, x (ix3 d (0 : Fin 1) (0 : Fin 1)) := by
  refine (Ideal.multiReduction_add_single x 0x00000000#32 reduces_S4x1x1_S1x1 (.inl rfl) rfl j).trans ?_
  exact Finset.sum_congr rfl fun d _ => congrArg x (lift_depth _ j d)

/-- The sum over sublanes of a [4,128,1] vector at `(d, u)`. -/
private theorem sum_sublane (x : FVec Ideal S4x128x1 .f32) (d : Fin 4) (u : Fin 1) :
    multiReduction .add [1] S4x1 x 0x00000000#32 reduces_S4x128x1_S4x1 (.inl rfl) rfl (ix2 d u)
      = ∑ r : Fin 128, x (ix3 d r u) := by
  refine (Ideal.multiReduction_add_single x 0x00000000#32 reduces_S4x128x1_S4x1 (.inl rfl) rfl (ix2 d u)).trans ?_
  exact Finset.sum_congr rfl fun r _ => congrArg x (lift_sublane _ d u r)

/-- The sum over lanes of a [4,128,128] vector at `(d, r)`. -/
private theorem sum_lane (x : FVec Ideal S4x128x128 .f32) (d : Fin 4) (r : Fin 128) :
    multiReduction .add [2] S4x128 x 0x00000000#32 reduces_S4x128x128_S4x128 (.inl rfl) rfl (ix2 d r)
      = ∑ w : Fin 128, x (ix3 d r w) := by
  refine (Ideal.multiReduction_add_single x 0x00000000#32 reduces_S4x128x128_S4x128 (.inl rfl) rfl (ix2 d r)).trans ?_
  exact Finset.sum_congr rfl fun w _ => congrArg x (lift_lane _ d r w)

/-! ## A trailing unit axis added by a reshape -/

/-- An `[a, b]` array viewed as `[a, b, 1]` reads, at `(i, j, u)`, the operand at `(i, j)`: both indices sit at
    row-major position `i * b + j`, the unit coordinate being zero. -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The four payloads -/

/-- The loss update at a lane: the old entry plus the sum of the four per-depth partial sums. -/
theorem pay1_apply (v35 : FVec Ideal S4x1x1 .f32) (v44 : Vec Ideal S1x1x128 .f32) (y : S1x1x128.Idx) :
    k0_pay1 (F := Ideal) v35 v44 y = v44 y + ∑ d : Fin 4, v35 (ix3 d (0 : Fin 1) (0 : Fin 1)) := by
  unfold k0_pay1
  show shapeCast S1x1x128 v44 shapeCasts_S1x1x128_S1x1x128 y
      + multiReduction .add [0] S1x1 v35 0x00000000#32 reduces_S4x1x1_S1x1 (.inl rfl) rfl _ = _
  rw [shapeCast_self, sum_depth]

/-- The weight update at a lane: the old entry plus the sum of the tile's weights. -/
theorem pay2_apply (v30 : FVec Ideal S4x128x128 .f32) (v49 : Vec Ideal S1x1x128 .f32) (y : S1x1x128.Idx) :
    k0_pay2 (F := Ideal) v30 v49 y = v49 y + ∑ d : Fin 4, ∑ h : Fin 128, ∑ w : Fin 128, v30 (ix3 d h w) := by
  unfold k0_pay2
  show shapeCast S1x1x128 v49 shapeCasts_S1x1x128_S1x1x128 y
      + multiReduction (F := Ideal) .add [0] S1x1 _ 0x00000000#32 reduces_S4x1x1_S1x1 (.inl rfl) rfl _ = _
  rw [shapeCast_self, sum_depth]
  refine congrArg (v49 y + ·) (Finset.sum_congr rfl fun d _ => ?_)
  refine (shapeCast_ab_ab1_apply _ _ d (0 : Fin 1) (0 : Fin 1)).trans ?_
  refine (sum_sublane _ d (0 : Fin 1)).trans ?_
  refine Finset.sum_congr rfl fun r _ => ?_
  refine (shapeCast_ab_ab1_apply _ _ d r (0 : Fin 1)).trans ?_
  exact sum_lane v30 d r

/-- The two reset blocks are zero on every lane. -/
theorem pay3_apply (y : S1x1x128.Idx) : k0_pay3 (F := Ideal) y = 0 := by
  unfold k0_pay3
  exact Ideal.ofBits_zero_f32
theorem pay4_apply (y : S1x1x128.Idx) : k0_pay4 (F := Ideal) y = 0 := by
  unfold k0_pay4
  exact Ideal.ofBits_zero_f32

end Cert.KernelIdeal.SumPay

end
-- ==== Proof.FocalSpec.lean ====
/-
  The focal loss over a batch of rows of sixteen logits, on the reals, and the laws of the extended reals by which
  the two programs' results are read as it.

  A position (b, dd, h, w) of the volume holds a ROW of sixteen logits x (one per class c) and a label t. With
  M the row's largest logit,
      lse x  = log (∑ c, exp (x c − M)) + M            (the row's log-sum-exp, shifted by its maximum)
      fw x t = (1 − x t)²                               (the focal weight, on the RAW logit of the label)
      fl x t = fw x t · (lse x − x t)                   (weight times cross-entropy)
  and the loss is (∑ fl) / (∑ fw) over all positions. Every quantity here is a real number when the logits are,
  so the sums may be regrouped freely; the one corner is ∑ fw = 0, which forces every fl to be 0, and there both
  quotients are the same junk value of 0 / 0.
-/
import Idealize.ShloMosaic.PureOps.Ideal
import Idealize.ShloMosaic.PureOps.Ideal.Laws
import Idealize.ShloMosaic.Lib.ValueIdx

noncomputable section

namespace Cert.Focal

open Idealize.ShloMosaic Idealize.ShloMosaic.ValueIdx

/-- The logits' shape [B, C, D, H, W] and the labels' [B, D, H, W]. -/
abbrev SX : Shape := ⟨5, ![4, 16, 64, 128, 128]⟩
abbrev ST : Shape := ⟨4, ![4, 64, 128, 128]⟩

/-! ## One row -/

/-- The largest of a row's sixteen logits. -/
def rowMax (x : Fin 16 → ℝ) : ℝ := Finset.univ.sup' Finset.univ_nonempty x

/-- The sum of the exponentials of the row shifted by its maximum: at least 1. -/
def sumExp (x : Fin 16 → ℝ) : ℝ := ∑ c : Fin 16, Real.exp (x c - rowMax x)

/-- The row's log-sum-exp. -/
def lse (x : Fin 16 → ℝ) : ℝ := Real.log (sumExp x) + rowMax x

/-- The focal weight of label `t`: the square of one minus the label's raw logit. -/
def fw (x : Fin 16 → ℝ) (t : Fin 16) : ℝ := (1 - x t) * (1 - x t)

/-- The focal loss term of label `t`: the weight times the cross-entropy `lse x − x t`. -/
def fl (x : Fin 16 → ℝ) (t : Fin 16) : ℝ := fw x t * (lse x - x t)

theorem le_rowMax (x : Fin 16 → ℝ) (c : Fin 16) : x c ≤ rowMax x :=
  Finset.le_sup' x (Finset.mem_univ c)

theorem sumExp_pos (x : Fin 16 → ℝ) : 0 < sumExp x :=
  Finset.sum_pos (fun c _ => Real.exp_pos _) Finset.univ_nonempty

theorem fw_nonneg (x : Fin 16 → ℝ) (t : Fin 16) : 0 ≤ fw x t := mul_self_nonneg _

theorem fl_eq_zero_of_fw (x : Fin 16 → ℝ) (t : Fin 16) (h : fw x t = 0) : fl x t = 0 := by
  unfold fl; rw [h, zero_mul]

/-! ## The whole volume -/

/-- A label word as a class: its value modulo 16 (the word itself when it is below 16). -/
def cls (b : BitVec 32) : Fin 16 := ⟨b.toNat % 16, Nat.mod_lt _ (by decide)⟩

theorem cls_val {b : BitVec 32} (h : b.toNat < 16) : BitVec.ofNat 32 (cls b).val = b := by
  apply BitVec.eq_of_toNat_eq
  simp only [cls, BitVec.toNat_ofNat]
  omega

/-- The row of logits at a position: the sixteen classes' entries. -/
def rowOf (X : SX.Idx → EReal) (b : Fin 4) (dd : Fin 64) (h w : Fin 128) : Fin 16 → ℝ :=
  fun c => (X (ix5 b c dd h w)).toReal

/-- The label at a position, as a class. -/
def lblOf (Tg : ST.Idx → BitVec 32) (b : Fin 4) (dd : Fin 64) (h w : Fin 128) : Fin 16 := cls (Tg (ix4 b dd h w))

/-- The focal weight and the focal loss term at a position. -/
def FW (X : SX.Idx → EReal) (Tg : ST.Idx → BitVec 32) (b : Fin 4) (dd : Fin 64) (h w : Fin 128) : ℝ :=
  fw (rowOf X b dd h w) (lblOf Tg b dd h w)
def FL (X : SX.Idx → EReal) (Tg : ST.Idx → BitVec 32) (b : Fin 4) (dd : Fin 64) (h w : Fin 128) : ℝ :=
  fl (rowOf X b dd h w) (lblOf Tg b dd h w)

/-- Their totals over the volume. -/
def totFW (X : SX.Idx → EReal) (Tg : ST.Idx → BitVec 32) : ℝ :=
  ∑ b : Fin 4, ∑ dd : Fin 64, ∑ h : Fin 128, ∑ w : Fin 128, FW X Tg b dd h w
def totFL (X : SX.Idx → EReal) (Tg : ST.Idx → BitVec 32) : ℝ :=
  ∑ b : Fin 4, ∑ dd : Fin 64, ∑ h : Fin 128, ∑ w : Fin 128, FL X Tg b dd h w

/-- THE RESULT both programs compute: the total loss over the total weight. -/
def result (X : SX.Idx → EReal) (Tg : ST.Idx → BitVec 32) : EReal :=
  Ideal.div (totFL X Tg : EReal) (totFW X Tg : EReal)

theorem FW_nonneg (X : SX.Idx → EReal) (Tg : ST.Idx → BitVec 32) (b : Fin 4) (dd : Fin 64) (h w : Fin 128) :
    0 ≤ FW X Tg b dd h w := fw_nonneg _ _

theorem FL_eq_zero_of_FW (X : SX.Idx → EReal) (Tg : ST.Idx → BitVec 32) (b : Fin 4) (dd : Fin 64) (h w : Fin 128)
    (h0 : FW X Tg b dd h w = 0) : FL X Tg b dd h w = 0 := fl_eq_zero_of_fw _ _ h0

/-- A finite entry is its real part. -/
theorem coe_rowOf (X : SX.Idx → EReal) (hfin : ∀ i, ∃ r : ℝ, X i = (r : EReal)) (b : Fin 4) (dd : Fin 64) (h w : Fin 128)
    (c : Fin 16) : X (ix5 b c dd h w) = ((rowOf X b dd h w c : ℝ) : EReal) := by
  obtain ⟨r, hr⟩ := hfin (ix5 b c dd h w)
  unfold rowOf
  rw [hr, EReal.toReal_coe]

/-! ## The constants the programs spell -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_inf : Ideal.ofBits .f32 0xFF800000#32 = ⊥ := by
  simp [Ideal.ofBits, Ideal.ieee]

/-! ## Sums and maxima of reals inside the extended reals -/

/-- A finite sum of reals, read in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Folding `max` from −∞ over a finite family of extended reals is taking its supremum. -/
private theorem fold_max_eq_sup {ι : Type*} (s : Finset ι) (f : ι → EReal) :
    s.fold max (⊥ : EReal) f = s.sup f := by
  classical
  induction s using Finset.induction_on with
  | empty => simp
  | insert a s ha ih => rw [Finset.fold_insert ha, Finset.sup_insert, ih]

/-- The fold of `max` from −∞ over a row of reals is the row's maximum. -/
theorem fold_max_coe (x : Fin 16 → ℝ) :
    (Finset.univ : Finset (Fin 16)).fold max (⊥ : EReal) (fun c => ((x c : ℝ) : EReal)) = ((rowMax x : ℝ) : EReal) := by
  rw [fold_max_eq_sup]
  apply le_antisymm
  · -- every entry is at most the maximum
    exact Finset.sup_le (fun c _ => EReal.coe_le_coe_iff.mpr (le_rowMax x c))
  · -- the maximum is attained at some class, and that entry is below the supremum
    obtain ⟨c, hc, hmax⟩ := Finset.exists_mem_eq_sup' Finset.univ_nonempty x
    have hrm : rowMax x = x c := hmax
    rw [hrm]
    exact Finset.le_sup (f := fun c => ((x c : ℝ) : EReal)) hc

/-! ## One row, in the extended reals -/

/-- The squared difference as a power: the reference's `(1 − p) ^ 2.0`. -/
theorem pow_two_coe (r : ℝ) : Ideal.pow ((r : ℝ) : EReal) (((2 : ℝ)) : EReal) = ((r * r : ℝ) : EReal) := by
  rw [Ideal.pow_coe_coe]
  congr 1
  show r ^ (2 : ℝ) = r * r
  rw [Real.rpow_two, sq]

/-- The logarithm of a row's sum of exponentials is a real. -/
theorem log_sumExp (x : Fin 16 → ℝ) : Ideal.log ((sumExp x : ℝ) : EReal) = ((Real.log (sumExp x) : ℝ) : EReal) := by
  rw [Ideal.log_coe, if_neg (not_le.mpr (sumExp_pos x))]

/-! ## The two quotients -/

/-- The kernel's quotient: a common positive factor of the two totals cancels, at a zero total too (the sign of the
    numerator is kept). -/
theorem div_scale (A S : ℝ) : Ideal.div (((128 * A : ℝ)) : EReal) (((128 * S : ℝ)) : EReal) = Ideal.div (A : EReal) (S : EReal) := by
  by_cases hS : S = 0
  · -- a zero divisor on both sides: the value is decided by the sign of the numerator, which the factor 128 keeps
    subst hS
    rw [mul_zero]
    unfold Ideal.div
    rw [if_pos EReal.coe_zero, if_pos EReal.coe_zero]
    have hsign : (0 : EReal) < ((128 * A : ℝ) : EReal) ↔ (0 : EReal) < ((A : ℝ) : EReal) := by
      rw [← EReal.coe_zero, EReal.coe_lt_coe_iff, EReal.coe_lt_coe_iff]
      constructor <;> intro h <;> linarith
    simp only [hsign]
  · -- a nonzero divisor: both sides are real quotients, and the factor cancels
    have h128 : (128 * S : ℝ) ≠ 0 := mul_ne_zero (by norm_num) hS
    rw [Ideal.div_coe h128, Ideal.div_coe hS, ← EReal.coe_mul, ← EReal.coe_mul]
    congr 1
    field_simp

/-- A sum of −∞ over a nonempty finite set is −∞. -/
private theorem sum_bot {ι : Type*} (s : Finset ι) (hs : s.Nonempty) : ∑ _i ∈ s, (⊥ : EReal) = ⊥ := by
  induction hs using Finset.Nonempty.cons_induction with
  | singleton a => rw [Finset.sum_singleton]
  | cons a s ha _ ih => rw [Finset.sum_cons, EReal.bot_add]

/-- The reference's sum of quotients: dividing term by term by the total weight and summing is dividing the total;
    when the total weight is zero every term is `0 / 0`, and so is the quotient of the totals. -/
theorem sum_div {ι : Type*} [Fintype ι] [Nonempty ι] (f g : ι → ℝ) (hg : ∀ i, 0 ≤ g i) (hfg : ∀ i, g i = 0 → f i = 0) :
    ∑ i, Ideal.div ((f i : ℝ) : EReal) (((∑ j, g j : ℝ)) : EReal) = Ideal.div (((∑ i, f i : ℝ)) : EReal) (((∑ j, g j : ℝ)) : EReal) := by
  by_cases hS : ∑ j, g j = 0
  · -- a zero total of nonnegative weights: every weight, hence every term of f, is zero
    have hg0 : ∀ i, g i = 0 := fun i =>
      (Finset.sum_eq_zero_iff_of_nonneg (fun i _ => hg i)).mp hS i (Finset.mem_univ i)
    have hf0 : ∀ i, f i = 0 := fun i => hfg i (hg0 i)
    have hsumf : ∑ i, f i = 0 := Finset.sum_eq_zero (fun i _ => hf0 i)
    have hjunk : Ideal.div ((0 : ℝ) : EReal) ((0 : ℝ) : EReal) = ⊥ := by simp [Ideal.div]
    rw [hS, hsumf, hjunk]
    have hterm : ∀ i ∈ (Finset.univ : Finset ι), Ideal.div ((f i : ℝ) : EReal) ((0 : ℝ) : EReal) = ⊥ := by
      intro i _
      rw [hf0 i, hjunk]
    rw [Finset.sum_congr rfl hterm]
    exact sum_bot Finset.univ Finset.univ_nonempty
  · -- a nonzero total: each quotient is a real product with the reciprocal, which factors out of the sum
    rw [Ideal.div_coe hS]
    simp only [Ideal.div_coe hS, ← EReal.coe_mul]
    rw [coe_sum, Finset.sum_mul]

end Cert.Focal

end
-- ==== Proof.KernelRowPay.lean ====
/-
  The kernel body's per-position arithmetic, read at a position of the tile, at the ideal values.

  A tile holds, for each of its 4·128·128 positions (d, h, w), a row of sixteen logits (one per class) and a label.
  When the logits are real numbers and the label is a class (below 16), the body's weight at the position is the
  focal weight of the row and the label, and its per-depth partial sum is the sum over (h, w) of the focal loss terms:
  the shifted gather `∑ c, [c = label] (x c − M)` is `x label − M`, and adding `M` back gives the raw logit.

  The road: first where each non-pointwise operation reads its operand (the class axis dropped or inserted by a
  reduction, a unit axis added or removed, a value repeated along the class axis), over literal coordinates; then one
  reading per intermediate value at a position whose row is a row `xr` of reals and whose label word is the class `k`
  (the row's maximum M, the shifted row, the gathered logit, the weight, the loss term); and last the two plane sums
  and the instantiation at the tile's own row and label.
-/
import proofs.«428549_j26766236189461_3_alg».proof.Proof.Gen.KernelIdeal.Skeleton
import proofs.«428549_j26766236189461_3_alg».proof.Proof.FocalSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RowPay

open Idealize.ShloMosaic Idealize.ShloMosaic.ValueIdx Cert.KernelIdeal Cert.KernelIdeal.Gen

/-- The row of logits at a position of a tile, as reals, and the label there, as a class. -/
def brow (x0 : Vec Ideal S1x16x4x128x128 .f32) (d : Fin 4) (h w : Fin 128) : Fin 16 → ℝ :=
  fun c => (x0 (ix5 (0 : Fin 1) c d h w)).toReal
def blbl (x1 : Vec Ideal S1x4x128x128 .i32) (d : Fin 4) (h w : Fin 128) : Fin 16 :=
  Cert.Focal.cls (x1 (ix4 (0 : Fin 1) d h w))

/-! ## Where the layout operations and the reductions read -/

/-- Reducing the class axis away: the index put back at class `c` over the position (d, h, w) is (c, d, h, w). -/
private theorem lift0 (hr : S16x4x128x128.Reduces [0] S4x128x128) (c : Fin 16) (d : Fin 4) (h w : Fin 128) :
    hr.lift (ix3 d h w) c = ix4 c d h w := by
  funext a
  match a with
  | ⟨0, _⟩ => exact Fin.ext rfl
  | ⟨1, _⟩ => exact Fin.ext rfl
  | ⟨2, _⟩ => exact Fin.ext rfl
  | ⟨3, _⟩ => exact Fin.ext rfl

/-- Reducing the lane axis away: the index put back at lane `w` over (d, h) is (d, h, w). -/
private theorem lift2 (hr : S4x128x128.Reduces [2] S4x128) (d : Fin 4) (h w : Fin 128) :
    hr.lift (ix2 d h) w = ix3 d h w := by
  funext a
  match a with
  | ⟨0, _⟩ => exact Fin.ext rfl
  | ⟨1, _⟩ => exact Fin.ext rfl
  | ⟨2, _⟩ => exact Fin.ext rfl

/-- Reducing the sublane axis of a [4,128,1] value away: the index put back at sublane `h` over (d, 0) is (d, h, 0). -/
private theorem lift1 (hr : S4x128x1.Reduces [1] S4x1) (d : Fin 4) (h : Fin 128) :
    hr.lift (ix2 d (0 : Fin 1)) h = ix3 d h (0 : Fin 1) := by
  funext a
  match a with
  | ⟨0, _⟩ => exact Fin.ext rfl
  | ⟨1, _⟩ => exact Fin.ext rfl
  | ⟨2, _⟩ => exact Fin.ext rfl

/-- The trailing coordinates of (0, d, h, w) are (d, h, w). -/
private theorem addUnit3 (d : Fin 4) (h w : Fin 128) :
    (fun a : Fin 3 => (ix4 (0 : Fin 1) d h w) a.succ) = ix3 d h w := by
  funext a
  match a with
  | ⟨0, _⟩ => rfl
  | ⟨1, _⟩ => rfl
  | ⟨2, _⟩ => rfl

/-- A leading 0 in front of (d, h, w) is (0, d, h, w). -/
private theorem dropUnit4 (d : Fin 4) (h w : Fin 128) :
    (Fin.cons (⟨0, Nat.one_pos⟩ : Fin 1) (ix3 d h w) : S1x4x128x128.Idx) = ix4 (0 : Fin 1) d h w := by
  funext a
  match a with
  | ⟨0, _⟩ => exact Fin.ext rfl
  | ⟨1, _⟩ => exact Fin.ext rfl
  | ⟨2, _⟩ => exact Fin.ext rfl
  | ⟨3, _⟩ => exact Fin.ext rfl

/-- A [1,4,128,128] value repeated along the class axis: its entry at class `c` is its entry at 0. -/
private theorem bcast_apply {α : Type} (v : S1x4x128x128.Idx → α) (hb : S1x4x128x128.Broadcasts S16x4x128x128)
    (c : Fin 16) (d : Fin 4) (h w : Fin 128) :
    broadcastTo S16x4x128x128 v hb (ix4 c d h w) = v (ix4 (0 : Fin 1) d h w) := by
  refine broadcastTo_apply v hb (ix4 c d h w) (ix4 (0 : Fin 1) d h w) fun a => ?_
  match a with
  | ⟨0, _⟩ => rfl
  | ⟨1, _⟩ => rfl
  | ⟨2, _⟩ => rfl
  | ⟨3, _⟩ => rfl

/-- A [4,128,128] value seen as [1,4,128,128]: (0, d, h, w) reads (d, h, w). -/
private theorem cast_add_apply {α : Type} (v : S4x128x128.Idx → α) (hc : S4x128x128.ShapeCasts S1x4x128x128)
    (d : Fin 4) (h w : Fin 128) :
    shapeCast S1x4x128x128 v hc (ix4 (0 : Fin 1) d h w) = v (ix3 d h w) := by
  refine (shapeCast_addUnit_apply ![4, 128, 128] v hc (ix4 (0 : Fin 1) d h w)).trans ?_
  exact congrArg v (addUnit3 d h w)

/-- A [1,4,128,128] value seen as [4,128,128]: (d, h, w) reads (0, d, h, w). -/
private theorem cast_drop_apply {α : Type} (v : S1x4x128x128.Idx → α) (hc : S1x4x128x128.ShapeCasts S4x128x128)
    (d : Fin 4) (h w : Fin 128) :
    shapeCast S4x128x128 v hc (ix3 d h w) = v (ix4 (0 : Fin 1) d h w) := by
  refine (shapeCast_dropUnit_apply ![4, 128, 128] v hc (ix3 d h w)).trans ?_
  exact congrArg v (dropUnit4 d h w)

/-- A [4,128] value seen as [4,128,1]: (d, h, 0) reads (d, h) — the same row-major position 128·d + h. -/
private theorem cast_trail1 {α : Type} (v : S4x128.Idx → α) (hc : S4x128.ShapeCasts S4x128x1) (d : Fin 4) (h : Fin 128) :
    shapeCast S4x128x1 v hc (ix3 d h (0 : Fin 1)) = v (ix2 d h) := by
  refine shapeCast_apply v hc (ix3 d h (0 : Fin 1)) (ix2 d h) ?_
  rw [Shape.rowMajor_val_two, Shape.rowMajor_val_three]
  show d.val * 128 + h.val = (d.val * 128 + h.val) * 1 + 0
  omega

/-- A [4,1] value seen as [4,1,1]: (d, 0, 0) reads (d, 0). -/
private theorem cast_trail2 {α : Type} (v : S4x1.Idx → α) (hc : S4x1.ShapeCasts S4x1x1) (d : Fin 4) :
    shapeCast S4x1x1 v hc (ix3 d (0 : Fin 1) (0 : Fin 1)) = v (ix2 d (0 : Fin 1)) := by
  refine shapeCast_apply v hc (ix3 d (0 : Fin 1) (0 : Fin 1)) (ix2 d (0 : Fin 1)) ?_
  rw [Shape.rowMajor_val_two, Shape.rowMajor_val_three]
  show d.val * 1 + 0 = (d.val * 1 + 0) * 1 + 0
  omega

/-- The class counter along axis 0 reads, at (c, d, h, w), the word of `c`. -/
private theorem iota_apply0 (hi : S16x4x128x128.Iotas .tc 32 [0]) (c : Fin 16) (d : Fin 4) (h w : Fin 128) :
    iota .tc S16x4x128x128 32 [0] hi (ix4 c d h w) = BitVec.ofNat 32 c.val :=
  iota_single_apply .tc S16x4x128x128 32 0 hi (ix4 c d h w)

/-! ## The label word -/

/-- Clamping a class word into [0, 15] as a signed word leaves it: a word below 16 is its own clamp. -/
private theorem clamp_cls : ∀ k : Fin 16,
    IntOp.minsi 15#32 (IntOp.maxsi 0#32 (BitVec.ofNat 32 k.val)) = BitVec.ofNat 32 k.val := by decide

/-- Two class words are the same word exactly when the classes are the same. -/
private theorem eq_cls : ∀ c k : Fin 16,
    IntOp.cmpi .eq (BitVec.ofNat 32 c.val) (BitVec.ofNat 32 k.val) = if c = k then 1#1 else 0#1 := by decide

/-- The clamped label, repeated along the class axis, is at every class of the position the label's word. -/
private theorem lbl_apply (x1 : Vec Ideal S1x4x128x128 .i32) (hc1 : S1x4x128x128.ShapeCasts S4x128x128)
    (hc2 : S4x128x128.ShapeCasts S1x4x128x128) (hb : S1x4x128x128.Broadcasts S16x4x128x128)
    (d : Fin 4) (h w : Fin 128) (k : Fin 16) (ht : x1 (ix4 (0 : Fin 1) d h w) = BitVec.ofNat 32 k.val) (c : Fin 16) :
    broadcastTo S16x4x128x128 (shapeCast S1x4x128x128
        (minsi (broadcast S4x128x128 15#32) (maxsi (broadcast S4x128x128 0#32) (shapeCast S4x128x128 x1 hc1))) hc2) hb
      (ix4 c d h w) = BitVec.ofNat 32 k.val := by
  rw [bcast_apply, cast_add_apply]
  show IntOp.minsi 15#32 (IntOp.maxsi 0#32 (shapeCast S4x128x128 x1 hc1 (ix3 d h w))) = _
  rw [cast_drop_apply, ht]
  exact clamp_cls k

/-! ## One position: the row `xr` of reals, the label the class `k` -/

/-- The tile without its unit batch axis: (c, d, h, w) reads (0, c, d, h, w). -/
theorem pay5_apply (x0 : Vec Ideal S1x16x4x128x128 .f32) (c : Fin 16) (d : Fin 4) (h w : Fin 128) :
    k0_pay5 (F := Ideal) x0 (ix4 c d h w) = x0 (ix5 (0 : Fin 1) c d h w) := by
  unfold k0_pay5
  refine (shapeCast_dropUnit_apply ![16, 4, 128, 128] x0 _ (ix4 c d h w)).trans ?_
  refine congrArg x0 ?_
  funext a
  match a with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- The maximum over the classes, started from −∞, is the row's largest logit M. -/
theorem pay6_apply (x0 : Vec Ideal S1x16x4x128x128 .f32) (xr : Fin 16 → ℝ) (d : Fin 4) (h w : Fin 128)
    (hx : ∀ c : Fin 16, x0 (ix5 (0 : Fin 1) c d h w) = ((xr c : ℝ) : EReal)) :
    k0_pay6 (F := Ideal) x0 (ix3 d h w) = ((Cert.Focal.rowMax xr : ℝ) : EReal) := by
  unfold k0_pay6
  refine (Ideal.multiReduction_maximumf_single (k0_pay5 (F := Ideal) x0) 0xFF800000#32 _ _ _ (ix3 d h w)).trans ?_
  have hrow : (k0_pay5 (F := Ideal) x0 ∘ (Facts₀.reduces_S16x4x128x128_S4x128x128).lift (ix3 d h w))
      = fun c : Fin 16 => ((xr c : ℝ) : EReal) := by
    funext c
    exact (congrArg (k0_pay5 (F := Ideal) x0) (lift0 _ c d h w)).trans ((pay5_apply x0 c d h w).trans (hx c))
  rw [hrow, Ideal.ofBits_def, Cert.Focal.ofBits_neg_inf]
  exact Cert.Focal.fold_max_coe xr

/-- The shifted row: the logit of class `c` minus M, a real. -/
theorem pay7_apply (x0 : Vec Ideal S1x16x4x128x128 .f32) (xr : Fin 16 → ℝ) (d : Fin 4) (h w : Fin 128)
    (hx : ∀ c : Fin 16, x0 (ix5 (0 : Fin 1) c d h w) = ((xr c : ℝ) : EReal)) (c : Fin 16) :
    k0_pay7 (F := Ideal) x0 (ix4 c d h w) = ((xr c - Cert.Focal.rowMax xr : ℝ) : EReal) := by
  unfold k0_pay7
  show k0_pay5 (F := Ideal) x0 (ix4 c d h w) - broadcastTo S16x4x128x128 _ _ (ix4 c d h w) = _
  rw [pay5_apply, bcast_apply, cast_add_apply, pay6_apply x0 xr d h w hx, hx, EReal.coe_sub]

/-- The gather's term at class `c`: the shifted logit where `c` is the label, zero elsewhere. -/
theorem sel_apply (x0 : Vec Ideal S1x16x4x128x128 .f32) (x1 : Vec Ideal S1x4x128x128 .i32)
    (xr : Fin 16 → ℝ) (d : Fin 4) (h w : Fin 128)
    (hx : ∀ c : Fin 16, x0 (ix5 (0 : Fin 1) c d h w) = ((xr c : ℝ) : EReal))
    (k : Fin 16) (ht : x1 (ix4 (0 : Fin 1) d h w) = BitVec.ofNat 32 k.val)
    (hi : S16x4x128x128.Iotas .tc 32 [0]) (hc1 : S1x4x128x128.ShapeCasts S4x128x128)
    (hc2 : S4x128x128.ShapeCasts S1x4x128x128) (hb : S1x4x128x128.Broadcasts S16x4x128x128)
    (hr : S16x4x128x128.Reduces [0] S4x128x128) (c : Fin 16) :
    select (cmpi .eq (iota .tc S16x4x128x128 32 [0] hi)
        (broadcastTo S16x4x128x128 (shapeCast S1x4x128x128
          (minsi (broadcast S4x128x128 15#32) (maxsi (broadcast S4x128x128 0#32) (shapeCast S4x128x128 x1 hc1))) hc2) hb))
      (k0_pay7 (F := Ideal) x0) (broadcast S16x4x128x128 (FloatOps.ofBits (F := Ideal) .f32 0#32))
      (hr.lift (ix3 d h w) c)
      = if c = k then ((xr c - Cert.Focal.rowMax xr : ℝ) : EReal) else 0 := by
  rw [lift0, select_apply]
  show Scalar.select (IntOp.cmpi .eq (iota .tc S16x4x128x128 32 [0] hi (ix4 c d h w)) (broadcastTo S16x4x128x128 _ hb (ix4 c d h w)))
    (k0_pay7 (F := Ideal) x0 (ix4 c d h w)) (FloatOps.ofBits (F := Ideal) .f32 0#32) = _
  rw [iota_apply0, lbl_apply x1 hc1 hc2 hb d h w k ht c, eq_cls, pay7_apply x0 xr d h w hx c]
  by_cases hck : c = k
  · rw [if_pos hck, if_pos hck]; exact select_one _ _
  · rw [if_neg hck, if_neg hck, select_zero, Ideal.ofBits_def, Cert.Focal.ofBits_zero]

/-- The gathered logit: the sum of the gather's terms is the label's shifted logit, and M added back gives the
    label's raw logit `xr k` — `(r − M) + M = r` on the reals. -/
theorem pay8_apply (x0 : Vec Ideal S1x16x4x128x128 .f32) (x1 : Vec Ideal S1x4x128x128 .i32)
    (xr : Fin 16 → ℝ) (d : Fin 4) (h w : Fin 128)
    (hx : ∀ c : Fin 16, x0 (ix5 (0 : Fin 1) c d h w) = ((xr c : ℝ) : EReal))
    (k : Fin 16) (ht : x1 (ix4 (0 : Fin 1) d h w) = BitVec.ofNat 32 k.val) :
    k0_pay8 (F := Ideal) x0 x1 (ix3 d h w) = ((xr k : ℝ) : EReal) := by
  unfold k0_pay8
  show multiReduction .add [0] S4x128x128 _ 0x00000000#32 _ _ _ (ix3 d h w) + k0_pay6 (F := Ideal) x0 (ix3 d h w) = _
  rw [pay6_apply x0 xr d h w hx]
  refine (congrArg (· + ((Cert.Focal.rowMax xr : ℝ) : EReal)) (Ideal.multiReduction_add_single _ _ _ _ _ (ix3 d h w))).trans ?_
  refine (congrArg (· + ((Cert.Focal.rowMax xr : ℝ) : EReal))
    (Finset.sum_congr rfl (fun c _ => sel_apply x0 x1 xr d h w hx k ht _ _ _ _ _ c))).trans ?_
  show (∑ c : Fin 16, if c = k then ((xr c - Cert.Focal.rowMax xr : ℝ) : EReal) else 0) + _ = _
  rw [Finset.sum_ite_eq' Finset.univ k, if_pos (Finset.mem_univ k), ← EReal.coe_add, sub_add_cancel]

/-- The weight: one minus the label's raw logit, squared. -/
theorem pay9_row (x0 : Vec Ideal S1x16x4x128x128 .f32) (x1 : Vec Ideal S1x4x128x128 .i32)
    (xr : Fin 16 → ℝ) (d : Fin 4) (h w : Fin 128)
    (hx : ∀ c : Fin 16, x0 (ix5 (0 : Fin 1) c d h w) = ((xr c : ℝ) : EReal))
    (k : Fin 16) (ht : x1 (ix4 (0 : Fin 1) d h w) = BitVec.ofNat 32 k.val) :
    k0_pay9 (F := Ideal) x0 x1 (ix3 d h w) = ((Cert.Focal.fw xr k : ℝ) : EReal) := by
  unfold k0_pay9
  show (FloatOps.ofBits (F := Ideal) .f32 0x3F800000#32 - k0_pay8 (F := Ideal) x0 x1 (ix3 d h w))
      * (FloatOps.ofBits (F := Ideal) .f32 0x3F800000#32 - k0_pay8 (F := Ideal) x0 x1 (ix3 d h w)) = _
  rw [pay8_apply x0 x1 xr d h w hx k ht, Ideal.ofBits_def, Cert.Focal.ofBits_one, ← EReal.coe_one, ← EReal.coe_sub,
    ← EReal.coe_mul]
  rfl

/-- The loss term: the sum over the classes of the exponentials of the shifted row is `sumExp xr`, a positive real,
    so its logarithm is a real; with M added back it is the row's log-sum-exp, and the weight times (log-sum-exp minus
    the label's logit) is the focal loss term. -/
theorem term_row (x0 : Vec Ideal S1x16x4x128x128 .f32) (x1 : Vec Ideal S1x4x128x128 .i32)
    (xr : Fin 16 → ℝ) (d : Fin 4) (h w : Fin 128)
    (hx : ∀ c : Fin 16, x0 (ix5 (0 : Fin 1) c d h w) = ((xr c : ℝ) : EReal))
    (k : Fin 16) (ht : x1 (ix4 (0 : Fin 1) d h w) = BitVec.ofNat 32 k.val)
    (hr : S16x4x128x128.Reduces [0] S4x128x128) (hφ : FKind.Formats .f32)
    (hacc : (0x00000000#32 : BitVec 32) = FKind.add.neutral .f32 hφ) :
    mulf (k0_pay9 (F := Ideal) x0 x1)
      (subf (addf (log (multiReduction .add [0] S4x128x128 (exp (k0_pay7 (F := Ideal) x0)) 0x00000000#32 hr hφ hacc))
        (k0_pay6 (F := Ideal) x0)) (k0_pay8 (F := Ideal) x0 x1)) (ix3 d h w)
      = ((Cert.Focal.fl xr k : ℝ) : EReal) := by
  show k0_pay9 (F := Ideal) x0 x1 (ix3 d h w)
      * ((FloatOps.log (multiReduction .add [0] S4x128x128 (exp (k0_pay7 (F := Ideal) x0)) 0x00000000#32 hr hφ hacc (ix3 d h w))
          + k0_pay6 (F := Ideal) x0 (ix3 d h w)) - k0_pay8 (F := Ideal) x0 x1 (ix3 d h w)) = _
  have hsum : multiReduction .add [0] S4x128x128 (exp (k0_pay7 (F := Ideal) x0)) 0x00000000#32 hr hφ hacc (ix3 d h w)
      = ((Cert.Focal.sumExp xr : ℝ) : EReal) := by
    refine (Ideal.multiReduction_add_single _ _ hr hφ hacc (ix3 d h w)).trans ?_
    refine (Finset.sum_congr rfl (fun c _ => ?_)).trans
      (Cert.Focal.coe_sum Finset.univ fun c : Fin 16 => Real.exp (xr c - Cert.Focal.rowMax xr))
    show FloatOps.exp (k0_pay7 (F := Ideal) x0 (hr.lift (ix3 d h w) c)) = _
    rw [lift0 hr c d h w, pay7_apply x0 xr d h w hx c, Ideal.exp_def, Ideal.exp_coe]
  rw [hsum, pay9_row x0 x1 xr d h w hx k ht, pay6_apply x0 xr d h w hx, pay8_apply x0 x1 xr d h w hx k ht,
    Ideal.log_def, Cert.Focal.log_sumExp, ← EReal.coe_add, ← EReal.coe_sub, ← EReal.coe_mul]
  rfl

/-! ## The plane sums -/

/-- The two sums that close the body — over the lanes, then over the sublanes, of a [4,128,128] value — read at
    depth `d`: the double sum over the plane. -/
theorem plane_sum (V : FVec Ideal S4x128x128 .f32) (hr2 : S4x128x128.Reduces [2] S4x128)
    (hc3 : S4x128.ShapeCasts S4x128x1) (hr1 : S4x128x1.Reduces [1] S4x1) (hc4 : S4x1.ShapeCasts S4x1x1)
    (hφ : FKind.Formats .f32) (hacc : (0x00000000#32 : BitVec 32) = FKind.add.neutral .f32 hφ) (d : Fin 4) :
    shapeCast S4x1x1 (multiReduction .add [1] S4x1
        (shapeCast S4x128x1 (multiReduction .add [2] S4x128 V 0x00000000#32 hr2 hφ hacc) hc3) 0x00000000#32 hr1 hφ hacc) hc4
      (ix3 d (0 : Fin 1) (0 : Fin 1)) = ∑ h : Fin 128, ∑ w : Fin 128, V (ix3 d h w) := by
  rw [cast_trail2]
  refine (Ideal.multiReduction_add_single _ _ hr1 hφ hacc (ix2 d (0 : Fin 1))).trans ?_
  show ∑ h : Fin 128, shapeCast S4x128x1 (multiReduction .add [2] S4x128 V 0x00000000#32 hr2 hφ hacc) hc3
      (hr1.lift (ix2 d (0 : Fin 1)) h) = _
  refine Finset.sum_congr rfl (fun h _ => ?_)
  rw [lift1 hr1 d h, cast_trail1]
  refine (Ideal.multiReduction_add_single _ _ hr2 hφ hacc (ix2 d h)).trans ?_
  show ∑ w : Fin 128, V (hr2.lift (ix2 d h) w) = _
  refine Finset.sum_congr rfl (fun w _ => ?_)
  rw [lift2 hr2 d h w]

/-! ## At the tile's own rows and labels -/

/-- A finite logit is its real part. -/
theorem brow_coe (x0 : Vec Ideal S1x16x4x128x128 .f32)
    (hfin : ∀ (c : Fin 16) (d : Fin 4) (h w : Fin 128), ∃ r : ℝ, x0 (ix5 (0 : Fin 1) c d h w) = (r : EReal))
    (d : Fin 4) (h w : Fin 128) (c : Fin 16) :
    x0 (ix5 (0 : Fin 1) c d h w) = ((brow x0 d h w c : ℝ) : EReal) := by
  obtain ⟨r, hr⟩ := hfin c d h w
  unfold brow
  rw [hr, EReal.toReal_coe]

/-- A label word below 16 is the word of its class. -/
theorem blbl_val (x1 : Vec Ideal S1x4x128x128 .i32)
    (hlt : ∀ (d : Fin 4) (h w : Fin 128), (x1 (ix4 (0 : Fin 1) d h w)).toNat < 16) (d : Fin 4) (h w : Fin 128) :
    x1 (ix4 (0 : Fin 1) d h w) = BitVec.ofNat 32 (blbl x1 d h w).val :=
  (Cert.Focal.cls_val (hlt d h w)).symm

/-- The body's weight at a position is the focal weight of the position's row and label. -/
theorem pay9_apply (x0 : Vec Ideal S1x16x4x128x128 .f32) (x1 : Vec Ideal S1x4x128x128 .i32)
    (hfin : ∀ (c : Fin 16) (d : Fin 4) (h w : Fin 128), ∃ r : ℝ, x0 (ix5 (0 : Fin 1) c d h w) = (r : EReal))
    (hlt : ∀ (d : Fin 4) (h w : Fin 128), (x1 (ix4 (0 : Fin 1) d h w)).toNat < 16)
    (d : Fin 4) (h w : Fin 128) :
    k0_pay9 (F := Ideal) x0 x1 (ix3 d h w) = ((Cert.Focal.fw (brow x0 d h w) (blbl x1 d h w) : ℝ) : EReal) :=
  pay9_row x0 x1 (brow x0 d h w) d h w (brow_coe x0 hfin d h w) (blbl x1 d h w) (blbl_val x1 hlt d h w)

/-- The body's per-depth partial sum is the sum over the plane of the focal loss terms. -/
theorem pay10_apply (x0 : Vec Ideal S1x16x4x128x128 .f32) (x1 : Vec Ideal S1x4x128x128 .i32)
    (hfin : ∀ (c : Fin 16) (d : Fin 4) (h w : Fin 128), ∃ r : ℝ, x0 (ix5 (0 : Fin 1) c d h w) = (r : EReal))
    (hlt : ∀ (d : Fin 4) (h w : Fin 128), (x1 (ix4 (0 : Fin 1) d h w)).toNat < 16)
    (d : Fin 4) :
    k0_pay10 (F := Ideal) x0 x1 (ix3 d (0 : Fin 1) (0 : Fin 1))
      = ((∑ h : Fin 128, ∑ w : Fin 128, Cert.Focal.fl (brow x0 d h w) (blbl x1 d h w) : ℝ) : EReal) := by
  unfold k0_pay10
  refine (plane_sum _ _ _ _ _ _ _ d).trans ?_
  rw [← Cert.Focal.coe_sum]
  refine Finset.sum_congr rfl (fun h _ => ?_)
  rw [← Cert.Focal.coe_sum]
  refine Finset.sum_congr rfl (fun w _ => ?_)
  exact term_row x0 x1 (brow x0 d h w) d h w (brow_coe x0 hfin d h w) (blbl x1 d h w) (blbl_val x1 hlt d h w) _ _ _

end Cert.KernelIdeal.RowPay
end
-- ==== Proof.FlatIndex.lean ====
/-
  Sums over an array's index set, coordinate by coordinate, and the flat position of a row.

  An index of a rank-3 or rank-4 array is its tuple of coordinates, so a sum over the index set is the iterated
  sum over the coordinates. A flat row number n below 4·64·128·128 names the position
  (n / 1048576, n / 16384 mod 64, n / 128 mod 128, n mod 128) of the [4, 64, 128, 128] volume in row-major order,
  and a sum over the flat numbers is the sum over the positions.
-/
import Idealize.ShloMosaic.Lib.ValueIdx

noncomputable section

namespace Cert.FlatIndex

open Idealize.ShloMosaic Idealize.ShloMosaic.ValueIdx

/-- A rank-3 index set is the product of its three coordinate ranges: an index is the triple of its coordinates. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the iterated sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the iterated sum over its coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The position of flat row `n`: batch entry, depth, row, column. -/
def pb (n : Fin 4194304) : Fin 4 := ⟨n.val / 1048576, by have := n.isLt; omega⟩
def pd (n : Fin 4194304) : Fin 64 := ⟨n.val / 16384 % 64, Nat.mod_lt _ (by decide)⟩
def ph (n : Fin 4194304) : Fin 128 := ⟨n.val / 128 % 128, Nat.mod_lt _ (by decide)⟩
def pw (n : Fin 4194304) : Fin 128 := ⟨n.val % 128, Nat.mod_lt _ (by decide)⟩

/-- A rank-1 index set is its one coordinate range. -/
private def idxEquiv1 {n : Nat} : (⟨1, ![n]⟩ : Shape).Idx ≃ Fin n where
  toFun i := i 0
  invFun a := ix1 a
  left_inv i := (eq_ix1 i).symm
  right_inv _ := rfl

/-- Row-major numbering: the flat rows are in bijection with the positions, the position (b, dd, h, w) having the
    number ((b·64 + dd)·128 + h)·128 + w. Both round trips are arithmetic of quotients and remainders by constants. -/
private def flatEquiv : Fin 4194304 ≃ Fin 4 × Fin 64 × Fin 128 × Fin 128 where
  toFun n := (pb n, pd n, ph n, pw n)
  invFun p := ⟨((p.1.val * 64 + p.2.1.val) * 128 + p.2.2.1.val) * 128 + p.2.2.2.val, by
    have h0 := p.1.isLt; have h1 := p.2.1.isLt; have h2 := p.2.2.1.isLt; have h3 := p.2.2.2.isLt; omega⟩
  left_inv n := by
    apply Fin.ext
    have hn := n.isLt
    simp only [pb, pd, ph, pw]
    omega
  right_inv p := by
    obtain ⟨b, dd, h, w⟩ := p
    have h0 := b.isLt; have h1 := dd.isLt; have h2 := h.isLt; have h3 := w.isLt
    refine Prod.ext (Fin.ext ?_) (Prod.ext (Fin.ext ?_) (Prod.ext (Fin.ext ?_) (Fin.ext ?_))) <;>
      simp only [pb, pd, ph, pw] <;> omega

/-- A sum over the flat rows is the sum over the positions. -/
theorem sum_flat {M : Type*} [AddCommMonoid M] (g : Fin 4 → Fin 64 → Fin 128 → Fin 128 → M) :
    ∑ n : (⟨1, ![4194304]⟩ : Shape).Idx, g (pb (n 0)) (pd (n 0)) (ph (n 0)) (pw (n 0))
      = ∑ b : Fin 4, ∑ dd : Fin 64, ∑ h : Fin 128, ∑ w : Fin 128, g b dd h w := by
  rw [Fintype.sum_equiv (idxEquiv1.trans flatEquiv)
      (fun n : (⟨1, ![4194304]⟩ : Shape).Idx => g (pb (n 0)) (pd (n 0)) (ph (n 0)) (pw (n 0)))
      (fun p : Fin 4 × Fin 64 × Fin 128 × Fin 128 => g p.1 p.2.1 p.2.2.1 p.2.2.2) (fun _ => rfl),
    Fintype.sum_prod_type]
  refine Finset.sum_congr rfl fun b _ => ?_
  rw [Fintype.sum_prod_type]
  refine Finset.sum_congr rfl fun dd _ => ?_
  rw [Fintype.sum_prod_type]

/-- The depths are in bijection with the pairs (tile, depth inside the tile): depth 4·d + e is the pair (d, e). -/
private def depthEquiv : Fin 16 × Fin 4 ≃ Fin 64 where
  toFun p := ⟨4 * p.1.val + p.2.val, by have := p.1.isLt; have := p.2.isLt; omega⟩
  invFun dd := (⟨dd.val / 4, by have := dd.isLt; omega⟩, ⟨dd.val % 4, Nat.mod_lt _ (by decide)⟩)
  left_inv p := by
    obtain ⟨d, e⟩ := p
    have h0 := d.isLt; have h1 := e.isLt
    refine Prod.ext (Fin.ext ?_) (Fin.ext ?_) <;> simp only <;> omega
  right_inv dd := by
    apply Fin.ext
    simp only
    omega

/-- A depth below 64 is a tile of four depths and a depth inside the tile. -/
theorem sum_depth {M : Type*} [AddCommMonoid M] (g : Fin 64 → M) :
    ∑ dd : Fin 64, g dd = ∑ d : Fin 16, ∑ e : Fin 4, g ⟨4 * d.val + e.val, by have := d.isLt; have := e.isLt; omega⟩ := by
  rw [← Equiv.sum_comp depthEquiv g, Fintype.sum_prod_type]
  rfl

end Cert.FlatIndex

end
-- ==== Proof.FocalTiles.lean ====
/-
  The kernel's order of summation: tiles of four depths, accumulated over the sixteen tiles of a batch entry.

  Grid point n (below 64) is batch entry n / 16 and depth tile n mod 16; the tile holds the depths
  4·(n mod 16) + e for e below 4. The kernel adds a tile's total to a running sum that restarts at the first tile of
  each batch entry, so after point n the running sum holds the totals of the tiles 16·(n / 16) … n, and after the
  last tile of a batch entry it holds the entry's total. The four entries' totals add up to the volume's total.
-/
import proofs.«428549_j26766236189461_3_alg».proof.Proof.FocalSpec
import proofs.«428549_j26766236189461_3_alg».proof.Proof.FlatIndex

noncomputable section

namespace Cert.Focal

open Idealize.ShloMosaic Idealize.ShloMosaic.ValueIdx

/-- The batch entry of grid point `n` and the depth `e` of its tile, as positions of the volume. -/
def tileB (n : ℕ) : Fin 4 := ⟨n / 16 % 4, Nat.mod_lt _ (by decide)⟩
def tileD (n : ℕ) (e : Fin 4) : Fin 64 :=
  ⟨4 * (n % 16) + e.val, by have := Nat.mod_lt n (show 0 < 16 by decide); have := e.isLt; omega⟩

/-- A tile's total loss and total weight. -/
def tileFL (X : SX.Idx → EReal) (Tg : ST.Idx → BitVec 32) (n : ℕ) : ℝ :=
  ∑ e : Fin 4, ∑ h : Fin 128, ∑ w : Fin 128, FL X Tg (tileB n) (tileD n e) h w
def tileFW (X : SX.Idx → EReal) (Tg : ST.Idx → BitVec 32) (n : ℕ) : ℝ :=
  ∑ e : Fin 4, ∑ h : Fin 128, ∑ w : Fin 128, FW X Tg (tileB n) (tileD n e) h w

/-- The running sums after grid point `n`: the tiles of `n`'s batch entry up to `n`. -/
def accFL (X : SX.Idx → EReal) (Tg : ST.Idx → BitVec 32) (n : ℕ) : ℝ :=
  ∑ j ∈ Finset.range (n % 16 + 1), tileFL X Tg (16 * (n / 16) + j)
def accFW (X : SX.Idx → EReal) (Tg : ST.Idx → BitVec 32) (n : ℕ) : ℝ :=
  ∑ j ∈ Finset.range (n % 16 + 1), tileFW X Tg (16 * (n / 16) + j)

/-- A batch entry's totals: its sixteen tiles. -/
def rowFL (X : SX.Idx → EReal) (Tg : ST.Idx → BitVec 32) (b : ℕ) : ℝ :=
  ∑ j ∈ Finset.range 16, tileFL X Tg (16 * b + j)
def rowFW (X : SX.Idx → EReal) (Tg : ST.Idx → BitVec 32) (b : ℕ) : ℝ :=
  ∑ j ∈ Finset.range 16, tileFW X Tg (16 * b + j)

variable (X : SX.Idx → EReal) (Tg : ST.Idx → BitVec 32)

/-- At the first tile of a batch entry the running sum is the tile's total. -/
theorem accFL_first (n : ℕ) (h : n % 16 = 0) : accFL X Tg n = tileFL X Tg n := by
  -- the range of tiles is the single tile 16·(n / 16) + 0, which is n itself
  have hn : 16 * (n / 16) + 0 = n := by omega
  unfold accFL
  rw [h, Finset.sum_range_one, hn]
theorem accFW_first (n : ℕ) (h : n % 16 = 0) : accFW X Tg n = tileFW X Tg n := by
  -- the range of tiles is the single tile 16·(n / 16) + 0, which is n itself
  have hn : 16 * (n / 16) + 0 = n := by omega
  unfold accFW
  rw [h, Finset.sum_range_one, hn]

/-- At any other tile it is the sum before plus the tile's total. -/
theorem accFL_succ (n : ℕ) (h : ¬(n + 1) % 16 = 0) : accFL X Tg (n + 1) = accFL X Tg n + tileFL X Tg (n + 1) := by
  -- n + 1 lies in the same batch entry as n, one tile further; the longer range splits off its last term
  have h1 : (n + 1) / 16 = n / 16 := by omega
  have h2 : (n + 1) % 16 = n % 16 + 1 := by omega
  have h3 : 16 * (n / 16) + (n % 16 + 1) = n + 1 := by omega
  unfold accFL
  rw [h1, h2, Finset.sum_range_succ, h3]
theorem accFW_succ (n : ℕ) (h : ¬(n + 1) % 16 = 0) : accFW X Tg (n + 1) = accFW X Tg n + tileFW X Tg (n + 1) := by
  -- n + 1 lies in the same batch entry as n, one tile further; the longer range splits off its last term
  have h1 : (n + 1) / 16 = n / 16 := by omega
  have h2 : (n + 1) % 16 = n % 16 + 1 := by omega
  have h3 : 16 * (n / 16) + (n % 16 + 1) = n + 1 := by omega
  unfold accFW
  rw [h1, h2, Finset.sum_range_succ, h3]

/-- After the last tile of a batch entry it is the entry's total. -/
theorem accFL_last (n : ℕ) (h : n % 16 = 15) : accFL X Tg n = rowFL X Tg (n / 16) := by
  -- the range of tiles is all sixteen
  unfold accFL rowFL
  rw [h]
theorem accFW_last (n : ℕ) (h : n % 16 = 15) : accFW X Tg n = rowFW X Tg (n / 16) := by
  -- the range of tiles is all sixteen
  unfold accFW rowFW
  rw [h]

/-- The four batch entries' totals are the volume's. -/
theorem sum_rowFL : ∑ b : Fin 4, rowFL X Tg b.val = totFL X Tg := by
  unfold totFL rowFL
  refine Finset.sum_congr rfl fun b _ => ?_
  -- the sixty-four depths are sixteen tiles of four; tile d of entry b is grid point 16·b + d
  rw [Cert.FlatIndex.sum_depth, Finset.sum_range]
  refine Finset.sum_congr rfl fun d _ => ?_
  unfold tileFL
  refine Finset.sum_congr rfl fun e _ => ?_
  have hb : tileB (16 * b.val + d.val) = b := by
    apply Fin.ext
    have := b.isLt
    have := d.isLt
    simp only [tileB]
    omega
  have hd : tileD (16 * b.val + d.val) e
      = (⟨4 * d.val + e.val, by have := d.isLt; have := e.isLt; omega⟩ : Fin 64) := by
    apply Fin.ext
    have := d.isLt
    simp only [tileD]
    omega
  rw [hb, hd]
theorem sum_rowFW : ∑ b : Fin 4, rowFW X Tg b.val = totFW X Tg := by
  unfold totFW rowFW
  refine Finset.sum_congr rfl fun b _ => ?_
  -- the sixty-four depths are sixteen tiles of four; tile d of entry b is grid point 16·b + d
  rw [Cert.FlatIndex.sum_depth, Finset.sum_range]
  refine Finset.sum_congr rfl fun d _ => ?_
  unfold tileFW
  refine Finset.sum_congr rfl fun e _ => ?_
  have hb : tileB (16 * b.val + d.val) = b := by
    apply Fin.ext
    have := b.isLt
    have := d.isLt
    simp only [tileB]
    omega
  have hd : tileD (16 * b.val + d.val) e
      = (⟨4 * d.val + e.val, by have := d.isLt; have := e.isLt; omega⟩ : Fin 64) := by
    apply Fin.ext
    have := d.isLt
    simp only [tileD]
    omega
  rw [hb, hd]

end Cert.Focal

end
-- ==== Proof.KernelArrays.lean ====
/-
  The two accumulator arrays after the kernel's region: each batch entry's total, on every lane.

  Grid point n = 16·b + d stages the logits and labels of batch entry b at the depths 4d … 4d+3 and adds the tile's
  total loss (and total weight) to the entry's [1,1,128] accumulator block, restarting from zero at d = 0. By
  induction over the points the block holds, after point n, the running sum of the entry's tiles up to n on every
  lane; the block is written back after the entry's last tile, so row b of the [4,1,128] array ends at the entry's
  total on every lane.
-/
import proofs.«428549_j26766236189461_3_alg».proof.Proof.Gen.KernelIdeal.Frame
import proofs.«428549_j26766236189461_3_alg».proof.Proof.KernelPieces
import proofs.«428549_j26766236189461_3_alg».proof.Proof.KernelSumPay
import proofs.«428549_j26766236189461_3_alg».proof.Proof.KernelRowPay
import proofs.«428549_j26766236189461_3_alg».proof.Proof.FocalTiles
import Idealize.ShloMosaic.Lib.Pipeline.Value

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Pieces Cert.KernelIdeal.SumPay Cert.KernelIdeal.RowPay
open Cert.Focal (tileB tileD tileFL tileFW accFL accFW rowFL rowFW)

variable (m : (ℓ : Loc nD τ sig) → Buf (Elt Ideal) ℓ)

/-- The logits and the labels as the region finds them. -/
abbrev xarr (c : Dev nD) : Cert.Focal.SX.Idx → EReal := V m c main_arg0
abbrev tarr (c : Dev nD) : Cert.Focal.ST.Idx → BitVec 32 := V m c main_arg1

/-- The tile of logits and the tile of labels staged at a grid point. -/
abbrev xblk (c : Dev nD) (t : Fin cfg0.N) : Vec Ideal S1x16x4x128x128 .f32 := iblk m c 0 t
abbrev tblk (c : Dev nD) (t : Fin cfg0.N) : Vec Ideal S1x4x128x128 .i32 := iblk m c 1 t

/-! ## Which entries a tile holds -/

theorem hN : cfg0.N = 64 := N_0

/-- The block indices of the four windows at point `t`: batch entry `t / 16`, depth tile `t mod 16`. -/
theorem idx0 : ∀ t : Fin cfg0.N, win0_0.index t (0 : Fin 5) = t.val / 16 ∧ win0_0.index t (1 : Fin 5) = 0
    ∧ win0_0.index t (2 : Fin 5) = t.val % 16 ∧ win0_0.index t (3 : Fin 5) = 0 ∧ win0_0.index t (4 : Fin 5) = 0 :=
  (by decide +kernel : ∀ t : Fin grid0.N, _)
theorem idx1 : ∀ t : Fin cfg0.N, win0_1.index t (0 : Fin 4) = t.val / 16 ∧ win0_1.index t (1 : Fin 4) = t.val % 16
    ∧ win0_1.index t (2 : Fin 4) = 0 ∧ win0_1.index t (3 : Fin 4) = 0 :=
  (by decide +kernel : ∀ t : Fin grid0.N, _)
theorem idx2 : ∀ t : Fin cfg0.N, win0_2.index t (0 : Fin 3) = t.val / 16 ∧ win0_2.index t (1 : Fin 3) = 0
    ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- Entry (0, c', e, h, w) of the logits tile at point `t` is the volume's logit of class c' at batch entry
    `t / 16`, depth `4 (t mod 16) + e`, row h, column w. -/
theorem xblk_apply (c : Dev nD) (t : Fin cfg0.N) (cc : Fin 16) (e : Fin 4) (h w : Fin 128) :
    xblk m c t (ix5 (0 : Fin 1) cc e h w) = xarr m c (ix5 (tileB t.val) cc (tileD t.val e) h w) := by
  obtain ⟨e0, e1, e2, e3, e4⟩ := idx0 t
  have ht : t.val < 64 := lt_of_lt_of_eq t.isLt hN
  show V m c main_arg0 (((cfg0.win 0).blk t).view.emb (ix5 (0 : Fin 1) cc e h w)) = V m c main_arg0 _
  refine congrArg (V m c main_arg0) ?_
  funext a; apply Fin.ext
  match a with
  | ⟨0, _⟩ => show win0_0.index t (0 : Fin 5) * 1 + 1 * 0 = t.val / 16 % 4; omega
  | ⟨1, _⟩ => show win0_0.index t (1 : Fin 5) * 16 + 1 * cc.val = cc.val; omega
  | ⟨2, _⟩ => show win0_0.index t (2 : Fin 5) * 4 + 1 * e.val = 4 * (t.val % 16) + e.val; omega
  | ⟨3, _⟩ => show win0_0.index t (3 : Fin 5) * 128 + 1 * h.val = h.val; omega
  | ⟨4, _⟩ => show win0_0.index t (4 : Fin 5) * 128 + 1 * w.val = w.val; omega

/-- Entry (0, e, h, w) of the labels tile at point `t` is the volume's label at the same position. -/
theorem tblk_apply (c : Dev nD) (t : Fin cfg0.N) (e : Fin 4) (h w : Fin 128) :
    tblk m c t (ix4 (0 : Fin 1) e h w) = tarr m c (ix4 (tileB t.val) (tileD t.val e) h w) := by
  obtain ⟨e0, e1, e2, e3⟩ := idx1 t
  have ht : t.val < 64 := lt_of_lt_of_eq t.isLt hN
  show V m c main_arg1 (((cfg0.win 1).blk t).view.emb (ix4 (0 : Fin 1) e h w)) = V m c main_arg1 _
  refine congrArg (V m c main_arg1) ?_
  funext a; apply Fin.ext
  match a with
  | ⟨0, _⟩ => show win0_1.index t (0 : Fin 4) * 1 + 1 * 0 = t.val / 16 % 4; omega
  | ⟨1, _⟩ => show win0_1.index t (1 : Fin 4) * 4 + 1 * e.val = 4 * (t.val % 16) + e.val; omega
  | ⟨2, _⟩ => show win0_1.index t (2 : Fin 4) * 128 + 1 * h.val = h.val; omega
  | ⟨3, _⟩ => show win0_1.index t (3 : Fin 4) * 128 + 1 * w.val = w.val; omega

/-- So the tile's rows and labels are the volume's at those positions. -/
theorem brow_eq (c : Dev nD) (t : Fin cfg0.N) (e : Fin 4) (h w : Fin 128) :
    brow (xblk m c t) e h w = Cert.Focal.rowOf (xarr m c) (tileB t.val) (tileD t.val e) h w := by
  funext cc
  show (xblk m c t (ix5 (0 : Fin 1) cc e h w)).toReal = (xarr m c (ix5 (tileB t.val) cc (tileD t.val e) h w)).toReal
  rw [xblk_apply]

theorem blbl_eq (c : Dev nD) (t : Fin cfg0.N) (e : Fin 4) (h w : Fin 128) :
    blbl (tblk m c t) e h w = Cert.Focal.lblOf (tarr m c) (tileB t.val) (tileD t.val e) h w := by
  show Cert.Focal.cls (tblk m c t (ix4 (0 : Fin 1) e h w)) = Cert.Focal.cls (tarr m c (ix4 (tileB t.val) (tileD t.val e) h w))
  rw [tblk_apply]

/-! ## A tile's contribution -/

section Tile

variable (c : Dev nD) (hfin : ∀ i, ∃ r : ℝ, xarr m c i = (r : EReal)) (hlt : ∀ j, (tarr m c j).toNat < 16)
include hfin hlt

theorem blk_fin (t : Fin cfg0.N) (cc : Fin 16) (e : Fin 4) (h w : Fin 128) :
    ∃ r : ℝ, xblk m c t (ix5 (0 : Fin 1) cc e h w) = (r : EReal) := by
  rw [xblk_apply]; exact hfin _

theorem blk_lt (t : Fin cfg0.N) (e : Fin 4) (h w : Fin 128) : (tblk m c t (ix4 (0 : Fin 1) e h w)).toNat < 16 := by
  rw [tblk_apply]; exact hlt _

/-- The sum of the tile's four per-depth loss sums is the tile's total loss. -/
theorem tile_loss (t : Fin cfg0.N) :
    ∑ d : Fin 4, k0_pay10 (F := Ideal) (xblk m c t) (tblk m c t) (ix3 d (0 : Fin 1) (0 : Fin 1))
      = ((tileFL (xarr m c) (tarr m c) t.val : ℝ) : EReal) := by
  have e1 : ∀ d : Fin 4, k0_pay10 (F := Ideal) (xblk m c t) (tblk m c t) (ix3 d (0 : Fin 1) (0 : Fin 1))
      = ((∑ h : Fin 128, ∑ w : Fin 128, Cert.Focal.FL (xarr m c) (tarr m c) (tileB t.val) (tileD t.val d) h w : ℝ) : EReal) := by
    intro d
    rw [pay10_apply (xblk m c t) (tblk m c t) (fun cc e h w => blk_fin m c hfin hlt t cc e h w)
      (fun e h w => blk_lt m c hfin hlt t e h w) d]
    refine congrArg _ (Finset.sum_congr rfl fun h _ => Finset.sum_congr rfl fun w _ => ?_)
    show Cert.Focal.fl (brow (xblk m c t) d h w) (blbl (tblk m c t) d h w) = _
    rw [brow_eq, blbl_eq]; rfl
  rw [Finset.sum_congr rfl fun d _ => e1 d, Cert.Focal.coe_sum]; rfl

/-- The sum of the tile's weights is the tile's total weight. -/
theorem tile_weight (t : Fin cfg0.N) :
    ∑ d : Fin 4, ∑ h : Fin 128, ∑ w : Fin 128, k0_pay9 (F := Ideal) (xblk m c t) (tblk m c t) (ix3 d h w)
      = ((tileFW (xarr m c) (tarr m c) t.val : ℝ) : EReal) := by
  have e1 : ∀ (d : Fin 4) (h w : Fin 128), k0_pay9 (F := Ideal) (xblk m c t) (tblk m c t) (ix3 d h w)
      = ((Cert.Focal.FW (xarr m c) (tarr m c) (tileB t.val) (tileD t.val d) h w : ℝ) : EReal) := by
    intro d h w
    rw [pay9_apply (xblk m c t) (tblk m c t) (fun cc e h w => blk_fin m c hfin hlt t cc e h w)
      (fun e h w => blk_lt m c hfin hlt t e h w) d h w]
    refine congrArg _ ?_
    show Cert.Focal.fw (brow (xblk m c t) d h w) (blbl (tblk m c t) d h w) = _
    rw [brow_eq, blbl_eq]; rfl
  simp only [e1, Cert.Focal.coe_sum]; rfl

/-! ## The running sums, point by point -/

/-- After point `n` both accumulator blocks hold, on every lane, the running sums of `n`'s batch entry. -/
theorem outs_eq : ∀ (n : ℕ) (hn : n < cfg0.N) (y : S1x1x128.Idx),
    (outsAt0 m c n hn).1 y = ((accFL (xarr m c) (tarr m c) n : ℝ) : EReal)
      ∧ (outsAt0 m c n hn).2 y = ((accFW (xarr m c) (tarr m c) n : ℝ) : EReal) := by
  have caseA : ∀ (t : Fin cfg0.N) (h0 : t.val % 16 = 0) (y : S1x1x128.Idx),
      (outsAt0 m c t.val t.isLt).1 y = ((accFL (xarr m c) (tarr m c) t.val : ℝ) : EReal)
        ∧ (outsAt0 m c t.val t.isLt).2 y = ((accFW (xarr m c) (tarr m c) t.val : ℝ) : EReal) := by
    intro t h0 y
    rw [outsAt0_A m c t h0]
    dsimp only
    constructor
    · refine (congrFun (piece_A_2 (F := Ideal) c (grid0.coords t) (ms0_0 t) (hs0_0 t) (ms0_1 t) (hs0_1 t) (ms0_2 t) (hs0_2 t)
        (ms0_3 t) (hs0_3 t) ((hcond0_0 t).mpr h0) (iblk m c 0 t) (iblk m c 1 t)) y).trans ?_
      rw [pay1_apply, pay3_apply, tile_loss m c hfin hlt t, Cert.Focal.accFL_first _ _ _ h0, zero_add]
    · refine (congrFun (piece_A_3 (F := Ideal) c (grid0.coords t) (ms0_0 t) (hs0_0 t) (ms0_1 t) (hs0_1 t) (ms0_2 t) (hs0_2 t)
        (ms0_3 t) (hs0_3 t) ((hcond0_0 t).mpr h0) (iblk m c 0 t) (iblk m c 1 t)) y).trans ?_
      rw [pay2_apply, pay4_apply, tile_weight m c hfin hlt t, Cert.Focal.accFW_first _ _ _ h0, zero_add]
  intro n
  induction n with
  | zero => intro hn y; exact caseA ⟨0, hn⟩ rfl y
  | succ n ih =>
    intro hn y
    by_cases h0 : (n + 1) % 16 = 0
    · exact caseA ⟨n + 1, hn⟩ h0 y
    · have ihn := ih (Nat.lt_of_succ_lt hn)
      rw [outsAt0_B m c ⟨n + 1, hn⟩ h0]
      dsimp only
      constructor
      · refine (congrFun (piece_B_2 (F := Ideal) c (grid0.coords ⟨n + 1, hn⟩) (ms0_0 ⟨n + 1, hn⟩) (hs0_0 ⟨n + 1, hn⟩)
          (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
          (fun h => h0 ((hcond0_0 ⟨n + 1, hn⟩).mp h)) (iblk m c 0 ⟨n + 1, hn⟩) (iblk m c 1 ⟨n + 1, hn⟩)
          (outsAt0 m c n (Nat.lt_of_succ_lt hn)).1 (outsAt0 m c n (Nat.lt_of_succ_lt hn)).2) y).trans ?_
        rw [pay1_apply, (ihn y).1, tile_loss m c hfin hlt ⟨n + 1, hn⟩, Cert.Focal.accFL_succ _ _ _ h0, EReal.coe_add]
      · refine (congrFun (piece_B_3 (F := Ideal) c (grid0.coords ⟨n + 1, hn⟩) (ms0_0 ⟨n + 1, hn⟩) (hs0_0 ⟨n + 1, hn⟩)
          (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
          (fun h => h0 ((hcond0_0 ⟨n + 1, hn⟩).mp h)) (iblk m c 0 ⟨n + 1, hn⟩) (iblk m c 1 ⟨n + 1, hn⟩)
          (outsAt0 m c n (Nat.lt_of_succ_lt hn)).1 (outsAt0 m c n (Nat.lt_of_succ_lt hn)).2) y).trans ?_
        rw [pay2_apply, (ihn y).2, tile_weight m c hfin hlt ⟨n + 1, hn⟩, Cert.Focal.accFW_succ _ _ _ h0, EReal.coe_add]

/-! ## The write-backs and the final arrays -/

/-- What the loss accumulator array ends holding: row b at batch entry b's total loss. -/
abbrev Gnum : S4x1x128.Idx → EReal := fun i => ((rowFL (xarr m c) (tarr m c) (i 0).val : ℝ) : EReal)
abbrev Gden : S4x1x128.Idx → EReal := fun i => ((rowFW (xarr m c) (tarr m c) (i 0).val : ℝ) : EReal)

/-- The write-back after a batch entry's last tile writes the entry's total on every lane of its row. -/
theorem flushed2_eq (t : Fin cfg0.N) (hf : (cfg0.win 2).flush t = true) :
    (dats m 0 c).flushed 2 t = ((cfg0.win 2).blk t).view.read (Elt Ideal) (Gnum m c) := by
  have h15 : t.val % 16 = 15 := (flush0_2 t).mp hf
  obtain ⟨e0, e1, e2⟩ := idx2 t
  show (cfg0.win 2).cut (grid0.coords t) ((dats m 0 c).after 2 t) = _
  rw [after0_2]
  funext y
  show (outsAt0 m c t.val t.isLt).1 y = Gnum m c (((cfg0.win 2).blk t).view.emb y)
  rw [(outs_eq m c hfin hlt t.val t.isLt y).1, Cert.Focal.accFL_last _ _ _ h15]
  show _ = ((rowFL (xarr m c) (tarr m c) ((((cfg0.win 2).blk t).view.emb y) 0).val : ℝ) : EReal)
  have hy : (y 0).val < 1 := (y 0).isLt
  have : ((((cfg0.win 2).blk t).view.emb y) 0).val = t.val / 16 := by
    show win0_2.index t (0 : Fin 3) * 1 + 1 * (y 0).val = t.val / 16; omega
  rw [this]

theorem flushed3_eq (t : Fin cfg0.N) (hf : (cfg0.win 3).flush t = true) :
    (dats m 0 c).flushed 3 t = ((cfg0.win 3).blk t).view.read (Elt Ideal) (Gden m c) := by
  have h15 : t.val % 16 = 15 := (flush0_3 t).mp hf
  obtain ⟨e0, e1, e2⟩ := idx3 t
  show (cfg0.win 3).cut (grid0.coords t) ((dats m 0 c).after 3 t) = _
  rw [after0_3]
  funext y
  show (outsAt0 m c t.val t.isLt).2 y = Gden m c (((cfg0.win 3).blk t).view.emb y)
  rw [(outs_eq m c hfin hlt t.val t.isLt y).2, Cert.Focal.accFW_last _ _ _ h15]
  show _ = ((rowFW (xarr m c) (tarr m c) ((((cfg0.win 3).blk t).view.emb y) 0).val : ℝ) : EReal)
  have hy : (y 0).val < 1 := (y 0).isLt
  have : ((((cfg0.win 3).blk t).view.emb y) 0).val = t.val / 16 := by
    show win0_3.index t (0 : Fin 3) * 1 + 1 * (y 0).val = t.val / 16; omega
  rw [this]

end Tile

/-- Row b of either accumulator array is the block written back after point 16 b + 15. -/
theorem cover2 (i : S4x1x128.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 128 := (i 2).isLt
  let t : Fin cfg0.N := ⟨16 * (i 0).val + 15, by rw [hN]; omega⟩
  obtain ⟨e0, e1, e2⟩ := idx2 t
  have tv : t.val = 16 * (i 0).val + 15 := rfl
  refine ⟨t, (flush0_2 t).mpr (by rw [tv]; omega), ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

theorem cover3 (i : S4x1x128.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 128 := (i 2).isLt
  let t : Fin cfg0.N := ⟨16 * (i 0).val + 15, by rw [hN]; omega⟩
  obtain ⟨e0, e1, e2⟩ := idx3 t
  have tv : t.val = 16 * (i 0).val + 15 := rfl
  refine ⟨t, (flush0_3 t).mpr (by rw [tv]; omega), ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 128 ≤ (i 2).val ∧ (i 2).val < win0_3.index t (2 : Fin 3) * 128 + 128; omega

/-- The loss accumulator array ends at each batch entry's total loss, on every lane. -/
theorem final_num (c : Dev nD) (hfin : ∀ i, ∃ r : ℝ, xarr m c i = (r : EReal)) (hlt : ∀ j, (tarr m c j).toNat < 16) :
    ((dats m 0 c).arrAt 2 cfg0.N : S4x1x128.Idx → EReal)
      = fun i => ((Cert.Focal.rowFL (xarr m c) (tarr m c) (i 0).val : ℝ) : EReal) :=
  (dats m 0 c).arrAt_eq_of_cover 2 (Gnum m c) (fun t hf => flushed2_eq m c hfin hlt t hf) cover2

/-- The weight accumulator array ends at each batch entry's total weight, on every lane. -/
theorem final_den (c : Dev nD) (hfin : ∀ i, ∃ r : ℝ, xarr m c i = (r : EReal)) (hlt : ∀ j, (tarr m c j).toNat < 16) :
    ((dats m 0 c).arrAt 3 cfg0.N : S4x1x128.Idx → EReal)
      = fun i => ((Cert.Focal.rowFW (xarr m c) (tarr m c) (i 0).val : ℝ) : EReal) :=
  (dats m 0 c).arrAt_eq_of_cover 3 (Gden m c) (fun t hf => flushed3_eq m c hfin hlt t hf) cover3

end Cert.KernelIdeal.Arrays

end
-- ==== Proof.KernelTail.lean ====
/-
  The kernel program's result: the total focal loss over the total focal weight.

  After the region the program sums each [4,1,128] accumulator array over all its entries and divides the two sums.
  Every lane of row b holds batch entry b's total, so each sum is 128 times the volume's total, and the common factor
  cancels in the quotient (at a zero total weight too: both quotients are the infinity of the numerator's sign, or the
  same junk value of 0 / 0).
-/
import proofs.«428549_j26766236189461_3_alg».proof.Proof.Gen.KernelIdeal.Frame
import proofs.«428549_j26766236189461_3_alg».proof.Proof.KernelArrays
import proofs.«428549_j26766236189461_3_alg».proof.Proof.FocalTiles
import Idealize.ShloMosaic.Lib.StableHlo.Run
import Idealize.ShloMosaic.PureOps.Ideal.Laws

noncomputable section

namespace Cert.KernelIdeal.Tail

open Idealize.ShloMosaic Idealize.ShloMosaic.TcCoe Idealize.ShloMosaic.ValueIdx Idealize.SL.Sem Idealize.ShloMosaic.StableHlo
open Cert.KernelIdeal Cert.KernelIdeal.Gen Cert.KernelIdeal.Arrays

variable (m : (ℓ : Loc nD τ sig) → Buf (Elt Ideal) ℓ) (ρ : Dev nD → PrngReg)

/-- An array whose every entry of row b is the real `g b`, summed over all its 4·1·128 entries: 128 times the sum of
    the four rows' values. -/
private theorem sum_lanes (g : ℕ → ℝ) :
    ∑ i : S4x1x128.Idx, ((g (i 0).val : ℝ) : EReal) = ((128 * ∑ b : Fin 4, g b.val : ℝ) : EReal) := by
  rw [Cert.FlatIndex.sum_idx3]
  show ∑ a : Fin 4, ∑ _b : Fin 1, ∑ _l : Fin 128, ((g a.val : ℝ) : EReal) = _
  simp only [Cert.Focal.coe_sum]
  refine congrArg _ ?_
  rw [Finset.mul_sum]
  refine Finset.sum_congr rfl fun a _ => ?_
  simp only [Finset.sum_const, Finset.card_univ, Fintype.card_fin, nsmul_eq_mul]
  norm_num

/-- The three closing lines on two arrays whose rows are constant at real values: each total from zero is 128 times
    the sum of the rows' values, and the quotient of the two totals is the quotient of the two sums. -/
private theorem tail_eq (A B : FVec Ideal S4x1x128 .f32) (a b : ℕ → ℝ)
    (hA : A = fun i => ((a (i 0).val : ℝ) : EReal)) (hB : B = fun i => ((b (i 0).val : ℝ) : EReal)) (j : S_.Idx) :
    Host.divf (Host.reduceAdd A (constant S_ .f32 0x00000000#32) reducesTo_S4x1x128_S_d0_1_2 h_S_)
        (Host.reduceAdd B (constant S_ .f32 0x00000000#32) reducesTo_S4x1x128_S_d0_1_2 h_S_) j
      = Ideal.div ((∑ q : Fin 4, a q.val : ℝ) : EReal) ((∑ q : Fin 4, b q.val : ℝ) : EReal) := by
  subst hA hB
  show Ideal.div (Ideal.hostReduceAdd reducesTo_S4x1x128_S_d0_1_2 _ (Ideal.ofBits .f32 0x00000000#32) j)
      (Ideal.hostReduceAdd reducesTo_S4x1x128_S_d0_1_2 _ (Ideal.ofBits .f32 0x00000000#32) j) = _
  rw [Ideal.hostReduceAdd_total _ (fun b => b.elim0), Ideal.hostReduceAdd_total _ (fun b => b.elim0),
    Cert.Focal.ofBits_zero, zero_add, zero_add, sum_lanes, sum_lanes, Cert.Focal.div_scale]

/-- What the lines after the region leave in the result buffer: the focal loss of the arrays the region found. -/
theorem tail_value (c : Dev nD) (hfin : ∀ i, ∃ r : ℝ, xarr m c i = (r : EReal)) (hlt : ∀ j, (tarr m c j).toNat < 16) :
    (Pipeline.afterTail₀ cfgs (dats m) 0 (V0 m) [hostOps1] c main_v3 : S_.Idx → EReal)
      = fun _ => Cert.Focal.result (xarr m c) (tarr m c) := by
  -- the two accumulator arrays as the region leaves them
  have e2 : Pipeline.withArrays (cfgs 0).spec c (V0 m c) (fun w => (dats m 0 c).arrAt w (cfgs 0).N) (Proc.devRef .tc main_v0_0)
      = fun i => ((Cert.Focal.rowFL (xarr m c) (tarr m c) (i 0).val : ℝ) : EReal) :=
    (Pipeline.withArrays_arr spec0 launch0.win.arr_inj c _ _ 2).trans (final_num m c hfin hlt)
  have e3 : Pipeline.withArrays (cfgs 0).spec c (V0 m c) (fun w => (dats m 0 c).arrAt w (cfgs 0).N) (Proc.devRef .tc main_v0_1)
      = fun i => ((Cert.Focal.rowFW (xarr m c) (tarr m c) (i 0).val : ℝ) : EReal) :=
    (Pipeline.withArrays_arr spec0 launch0.win.arr_inj c _ _ 3).trans (final_den m c hfin hlt)
  unfold Pipeline.afterTail₀
  show StableHlo.after hostOps1 _ (Proc.devRef .tc main_v3) = _
  after_results
  funext j
  refine (tail_eq _ _ (Cert.Focal.rowFL (xarr m c) (tarr m c)) (Cert.Focal.rowFW (xarr m c) (tarr m c)) e2 e3 j).trans ?_
  -- the four batch entries' totals are the volume's
  rw [Cert.Focal.sum_rowFL, Cert.Focal.sum_rowFW]
  rfl

/-- The run, read: the result buffer at the focal loss, the two arguments unchanged. -/
theorem run (hfin : ∀ (c : Dev nD) i, ∃ r : ℝ, xarr m c i = (r : EReal)) (hlt : ∀ (c : Dev nD) j, (tarr m c j).toNat < 16) :
    θ_run defs (onTc (τ := τ) (main (F := Ideal))) ⟨m, fun _ => 0, ρ⟩ (fun r => ∀ c : Dev nD,
      r.2.mem ((c.tc : Thread nD τ).loc main_v3) = (fun _ => Cert.Focal.result (xarr m c) (tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  -- the run's post has the result buffer at what the closing lines leave, and the two arguments at their arrays
  exact (θ_run defs _ _).mono (fun r h c =>
    ⟨((h c).2 main_v3 (Pipeline.mem_restRefs_of main_v3 rfl (by decide))).trans (tail_value m c (hfin c) (hlt c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Tail

end
-- ==== Proof.RefRunStages.lean ====
/-
  The reference program's run, read stage by stage.

  The reference is a straight line of eighty host operations (three of its functions inlined at their calls). Every
  weakly fair execution ends with each buffer at its operation's value of the buffers before it; followed in program
  order, a stretch at a time, the result buffer ends at the last stage's value of the two arguments, which end unchanged.
-/
import proofs.«428549_j26766236189461_3_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The two arguments' types, and the cut of the eighty operations into six stretches -/

/-- The contents of the first argument (the logits) and of the second (the labels). -/
abbrev X0 (F : FTy → Type) := (⟨S4x16x64x128x128, .f32⟩ : BufTy).Contents (Elt F)
@[inherit_doc X0]
abbrev X1 (F : FTy → Type) := (⟨S4x64x128x128, .i32⟩ : BufTy).Contents (Elt F)

/-- The stretches, in program order: the two arguments flattened (to `main_v3`); the first gather along the class axis
    (to `main_v4`); the focal weight (to `main_v9`); the log-softmax (to `main_v10`); the second gather (to
    `main_v12`); the weighted mean (to `main_v19`). Each cut falls after a value with several later readers. -/
abbrev l1 : List (HloOp τ sig (Elt F)) := ops.take 4
@[inherit_doc l1] abbrev l2 : List (HloOp τ sig (Elt F)) := (ops.drop 4).take 22
@[inherit_doc l1] abbrev l3 : List (HloOp τ sig (Elt F)) := (ops.drop 26).take 7
@[inherit_doc l1] abbrev l4 : List (HloOp τ sig (Elt F)) := (ops.drop 33).take 15
@[inherit_doc l1] abbrev l5 : List (HloOp τ sig (Elt F)) := (ops.drop 48).take 23
@[inherit_doc l1] abbrev l6 : List (HloOp τ sig (Elt F)) := ops.drop 71

/-- The whole program's effect on the buffers is the six stretches' effects composed. -/
theorem after_ops (V : Valuation τ sig (Elt F)) :
    after ops V = after l6 (after l5 (after l4 (after l3 (after l2 (after l1 V))))) := by
  have e : (ops : List (HloOp τ sig (Elt F))) = l1 ++ (l2 ++ (l3 ++ (l4 ++ (l5 ++ l6)))) := rfl
  calc after ops V = after (l1 ++ (l2 ++ (l3 ++ (l4 ++ (l5 ++ l6))))) V := congrArg (fun l => after l V) e
    _ = _ := by simp only [after_append]

/-! ## Reading a buffer through its typed reference

A function's inlined operation writes its value at the buffer's own type and reads its operands back at the value's
type; the two types are equal, so each transport is the identity: a write read back is the value written (for every
reference), and at the references a stretch meets on one side only the single transport is the identity as well. -/

/-- Contents written at a typed reference and read back at it are the contents. -/
private theorem ofBuf_toBuf_of {Val : EltTy → Type} {T : BufTy} (r : Ref sig .tc) (h : r.ty = T) (h2 : r.space ≠ .host)
    (h3 : r.isScoped = false) (v : T.Contents Val) : (TRef.of r h h2 h3).ofBuf ((TRef.of r h h2 h3).toBuf v) = v := by
  subst h; rfl

private theorem ofBuf_main_v1 {Val : EltTy → Type} (h : main_v1.ty = ⟨S4194304x16, .f32⟩) (h2 : main_v1.space ≠ .host)
    (h3 : main_v1.isScoped = false) (v : main_v1.ty.Contents Val) :
    (TRef.of (T := ⟨S4194304x16, .f32⟩) main_v1 h h2 h3).ofBuf v = v := rfl
private theorem ofBuf_main_v3 {Val : EltTy → Type} (h : main_v3.ty = ⟨S4194304x1, .i32⟩) (h2 : main_v3.space ≠ .host)
    (h3 : main_v3.isScoped = false) (v : main_v3.ty.Contents Val) :
    (TRef.of (T := ⟨S4194304x1, .i32⟩) main_v3 h h2 h3).ofBuf v = v := rfl
private theorem toBuf_main_call0_v4 {Val : EltTy → Type} (h : main_call0_v4.ty = ⟨S4194304x1, .i32⟩) (h2 : main_call0_v4.space ≠ .host)
    (h3 : main_call0_v4.isScoped = false) (v : (⟨S4194304x1, .i32⟩ : BufTy).Contents Val) :
    (TRef.of (T := ⟨S4194304x1, .i32⟩) main_call0_v4 h h2 h3).toBuf v = v := rfl
private theorem ofBuf_main_call0_v5 {Val : EltTy → Type} (h : main_call0_v5.ty = ⟨S4194304x1x1, .i32⟩) (h2 : main_call0_v5.space ≠ .host)
    (h3 : main_call0_v5.isScoped = false) (v : main_call0_v5.ty.Contents Val) :
    (TRef.of (T := ⟨S4194304x1x1, .i32⟩) main_call0_v5 h h2 h3).ofBuf v = v := rfl
private theorem toBuf_main_v4 {Val : EltTy → Type} (h : main_v4.ty = ⟨S4194304x1, .f32⟩) (h2 : main_v4.space ≠ .host)
    (h3 : main_v4.isScoped = false) (v : (⟨S4194304x1, .f32⟩ : BufTy).Contents Val) :
    (TRef.of (T := ⟨S4194304x1, .f32⟩) main_v4 h h2 h3).toBuf v = v := rfl
private theorem toBuf_main_v10 {Val : EltTy → Type} (h : main_v10.ty = ⟨S4194304x16, .f32⟩) (h2 : main_v10.space ≠ .host)
    (h3 : main_v10.isScoped = false) (v : (⟨S4194304x16, .f32⟩ : BufTy).Contents Val) :
    (TRef.of (T := ⟨S4194304x16, .f32⟩) main_v10 h h2 h3).toBuf v = v := rfl
private theorem ofBuf_main_v10 {Val : EltTy → Type} (h : main_v10.ty = ⟨S4194304x16, .f32⟩) (h2 : main_v10.space ≠ .host)
    (h3 : main_v10.isScoped = false) (v : main_v10.ty.Contents Val) :
    (TRef.of (T := ⟨S4194304x16, .f32⟩) main_v10 h h2 h3).ofBuf v = v := rfl
private theorem ofBuf_main_v11 {Val : EltTy → Type} (h : main_v11.ty = ⟨S4194304x1, .i32⟩) (h2 : main_v11.space ≠ .host)
    (h3 : main_v11.isScoped = false) (v : main_v11.ty.Contents Val) :
    (TRef.of (T := ⟨S4194304x1, .i32⟩) main_v11 h h2 h3).ofBuf v = v := rfl
private theorem toBuf_main_call2_v4 {Val : EltTy → Type} (h : main_call2_v4.ty = ⟨S4194304x1, .i32⟩) (h2 : main_call2_v4.space ≠ .host)
    (h3 : main_call2_v4.isScoped = false) (v : (⟨S4194304x1, .i32⟩ : BufTy).Contents Val) :
    (TRef.of (T := ⟨S4194304x1, .i32⟩) main_call2_v4 h h2 h3).toBuf v = v := rfl
private theorem ofBuf_main_call2_v5 {Val : EltTy → Type} (h : main_call2_v5.ty = ⟨S4194304x1x1, .i32⟩) (h2 : main_call2_v5.space ≠ .host)
    (h3 : main_call2_v5.isScoped = false) (v : main_call2_v5.ty.Contents Val) :
    (TRef.of (T := ⟨S4194304x1x1, .i32⟩) main_call2_v5 h h2 h3).ofBuf v = v := rfl
private theorem toBuf_main_v12 {Val : EltTy → Type} (h : main_v12.ty = ⟨S4194304x1, .f32⟩) (h2 : main_v12.space ≠ .host)
    (h3 : main_v12.isScoped = false) (v : (⟨S4194304x1, .f32⟩ : BufTy).Contents Val) :
    (TRef.of (T := ⟨S4194304x1, .f32⟩) main_v12 h h2 h3).toBuf v = v := rfl

/-- A stretch's effect at one buffer, as the operations' functions applied to the contents before the stretch: the
    stretch's operations listed, each one's result read at its own buffer and passed over at every other. -/
local macro "stage_results" : tactic =>
  `(tactic| (simp only [l1, l2, l3, l4, l5, l6, ops, List.take_succ_cons, List.take_zero, List.drop_succ_cons, List.drop_zero]; after_results_simp))

/-! ## Stretch 1: the arguments flattened -/

theorem s1_v1 (W : Valuation τ sig (Elt F)) (x0 : X0 F) (h0 : W (Proc.devRef .tc main_arg0) = x0) :
    after l1 W (Proc.devRef .tc main_v1) = val_main_v1 x0 := by
  stage_results
  rw [h0]
  rfl
theorem s1_v2 (W : Valuation τ sig (Elt F)) (x1 : X1 F) (h1 : W (Proc.devRef .tc main_arg1) = x1) :
    after l1 W (Proc.devRef .tc main_v2) = val_main_v2 x1 := by
  stage_results
  rw [h1]
  rfl
theorem s1_v3 (W : Valuation τ sig (Elt F)) (x1 : X1 F) (h1 : W (Proc.devRef .tc main_arg1) = x1) :
    after l1 W (Proc.devRef .tc main_v3) = val_main_v3 x1 := by
  stage_results
  rw [h1]
  rfl

/-! ## Stretch 2: the first gather along the class axis -/

theorem s2_v4 (W : Valuation τ sig (Elt F)) (x0 : X0 F) (x1 : X1 F)
    (h1 : W (Proc.devRef .tc main_v1) = val_main_v1 x0) (h3 : W (Proc.devRef .tc main_v3) = val_main_v3 x1) :
    after l2 W (Proc.devRef .tc main_v4) = val_main_v4 x0 x1 := by
  stage_results
  simp only [ofBuf_toBuf_of, ofBuf_main_v3, ofBuf_main_v1, toBuf_main_call0_v4, ofBuf_main_call0_v5, toBuf_main_v4]
  rw [h1, h3]
  rfl
theorem s2_pass_v1 (W : Valuation τ sig (Elt F)) : after l2 W (Proc.devRef .tc main_v1) = W (Proc.devRef .tc main_v1) := by stage_results
theorem s2_pass_v2 (W : Valuation τ sig (Elt F)) : after l2 W (Proc.devRef .tc main_v2) = W (Proc.devRef .tc main_v2) := by stage_results

/-! ## Stretch 3: the focal weight -/

theorem s3_v9 (W : Valuation τ sig (Elt F)) (x0 : X0 F) (x1 : X1 F) (h4 : W (Proc.devRef .tc main_v4) = val_main_v4 x0 x1) :
    after l3 W (Proc.devRef .tc main_v9) = val_main_v9 x0 x1 := by
  stage_results
  rw [h4]
  rfl
theorem s3_pass_v1 (W : Valuation τ sig (Elt F)) : after l3 W (Proc.devRef .tc main_v1) = W (Proc.devRef .tc main_v1) := by stage_results
theorem s3_pass_v2 (W : Valuation τ sig (Elt F)) : after l3 W (Proc.devRef .tc main_v2) = W (Proc.devRef .tc main_v2) := by stage_results

/-! ## Stretch 4: the log-softmax -/

theorem s4_v10 (W : Valuation τ sig (Elt F)) (x0 : X0 F) (h1 : W (Proc.devRef .tc main_v1) = val_main_v1 x0) :
    after l4 W (Proc.devRef .tc main_v10) = val_main_v10 x0 := by
  stage_results
  simp only [ofBuf_toBuf_of, ofBuf_main_v1, toBuf_main_v10]
  rw [h1]
  rfl
theorem s4_pass_v2 (W : Valuation τ sig (Elt F)) : after l4 W (Proc.devRef .tc main_v2) = W (Proc.devRef .tc main_v2) := by stage_results
theorem s4_pass_v9 (W : Valuation τ sig (Elt F)) : after l4 W (Proc.devRef .tc main_v9) = W (Proc.devRef .tc main_v9) := by stage_results

/-! ## Stretch 5: the second gather -/

theorem s5_v12 (W : Valuation τ sig (Elt F)) (x0 : X0 F) (x1 : X1 F)
    (h2 : W (Proc.devRef .tc main_v2) = val_main_v2 x1) (h10 : W (Proc.devRef .tc main_v10) = val_main_v10 x0) :
    after l5 W (Proc.devRef .tc main_v12) = val_main_v12 x0 x1 := by
  stage_results
  simp only [ofBuf_toBuf_of, ofBuf_main_v11, ofBuf_main_v10, toBuf_main_call2_v4, ofBuf_main_call2_v5, toBuf_main_v12]
  rw [h2, h10]
  rfl
theorem s5_pass_v9 (W : Valuation τ sig (Elt F)) : after l5 W (Proc.devRef .tc main_v9) = W (Proc.devRef .tc main_v9) := by stage_results

/-! ## Stretch 6: the weighted mean -/

theorem s6_v19 (W : Valuation τ sig (Elt F)) (x0 : X0 F) (x1 : X1 F)
    (h9 : W (Proc.devRef .tc main_v9) = val_main_v9 x0 x1) (h12 : W (Proc.devRef .tc main_v12) = val_main_v12 x0 x1) :
    after l6 W (Proc.devRef .tc main_v19) = val_main_v19 x0 x1 := by
  stage_results
  rw [h9, h12]
  rfl

/-! ## The stretches in turn -/

/-- From any contents whose two argument buffers hold `x0` and `x1`, the result buffer ends at the last stage's value
    of them: each stretch's live values follow from the ones before it. -/
theorem result_eq (V : Valuation τ sig (Elt F)) (x0 : X0 F) (x1 : X1 F)
    (h0 : V (Proc.devRef .tc main_arg0) = x0) (h1 : V (Proc.devRef .tc main_arg1) = x1) :
    after ops V (Proc.devRef .tc main_v19) = val_main_v19 x0 x1 := by
  rw [after_ops]
  have a1 := s1_v1 V x0 h0
  have a2 := s1_v2 V x1 h1
  have a3 := s1_v3 V x1 h1
  have b1 := (s2_pass_v1 (after l1 V)).trans a1
  have b2 := (s2_pass_v2 (after l1 V)).trans a2
  have b4 := s2_v4 (after l1 V) x0 x1 a1 a3
  have c1 := (s3_pass_v1 (after l2 (after l1 V))).trans b1
  have c2 := (s3_pass_v2 (after l2 (after l1 V))).trans b2
  have c9 := s3_v9 (after l2 (after l1 V)) x0 x1 b4
  have d2 := (s4_pass_v2 (after l3 (after l2 (after l1 V)))).trans c2
  have d9 := (s4_pass_v9 (after l3 (after l2 (after l1 V)))).trans c9
  have d10 := s4_v10 (after l3 (after l2 (after l1 V))) x0 c1
  have e9 := (s5_pass_v9 (after l4 (after l3 (after l2 (after l1 V))))).trans d9
  have e12 := s5_v12 (after l4 (after l3 (after l2 (after l1 V)))) x0 x1 d2 d10
  exact s6_v19 (after l5 (after l4 (after l3 (after l2 (after l1 V))))) x0 x1 e9 e12

/-- On every device: every weakly fair execution of the reference terminates with its result at the last stage's value
    of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = val_main_v19 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v19).trans (result_eq _ _ _ rfl rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Stages

end
-- ==== Proof.LibGatherRows.lean ====
/-
  A row-wise gather read at an index.

  The operand is a table of `N` rows and `C` columns; the start indices are one word per row, laid out as an
  `N × 1 × 1` array; the result is an `N × 1` column. Row `b` of the result reads row `b` of the table (the row axis
  is a batching axis on both sides) at the column its word names: the word read as a SIGNED integer and clamped into
  `[0, C − 1]`. This is what `take_along_axis(table, idx[:, None], axis=1)` lowers to.
  When the word is already a column's position (below `C`, with `C` at most half the word range so that the signed
  reading is the unsigned one) the entry read is the one at the word itself.
  Nothing here depends on the sizes.
-/
import Idealize.ShloMosaic.PureOps.Ideal
import Idealize.ShloMosaic.PureOps.ShapeOps
import Idealize.ShloMosaic.PureOps.Contract
import Idealize.ShloMosaic.Lib.ValueIdx

noncomputable section

namespace Cert.LibGatherRows

open Idealize.ShloMosaic Idealize.ShloMosaic.ValueIdx

variable {α : Type} {N C w : Nat}

/-- The row-wise gather at `(b, u)`, whatever the word: row `b` of the table at the column the word of row `b`
    names, read signed and clamped. -/
theorem gather_rows_clamp (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1) (hC : 0 < C) :
    Host.gather d x idx (ix2 b u)
      = x (ix2 b ⟨min (idx (ix3 b u (0 : Fin 1))).toInt.toNat (C - 1), by omega⟩) := by
  have hsl : d.sliceSizes 1 = 1 := d.slice_collapsed 1 (by rw [hcoll]; exact List.mem_singleton.mpr rfl)
  unfold Host.gather
  refine congrArg x ?_
  cases d with
  | mk od cd ob sb sm iv ss wf =>
    obtain rfl : od = [] := hoff
    obtain rfl : cd = [1] := hcoll
    obtain rfl : ob = [0] := hob
    obtain rfl : sb = [0] := hsb
    obtain rfl : sm = [1] := hsim
    obtain rfl : iv = 2 := hivd
    replace hsl : ss 1 = 1 := hsl
    funext a
    match a with
    | ⟨0, _⟩ =>
      apply Fin.ext
      show GatherDims.start _ (ix2 b u) idx 0 + GatherDims.batchCoord _ (ix2 b u) 0 + GatherDims.offCoord _ (ix2 b u) 0
        = b.val
      rw [GatherDims.offCoord_eq_zero _ _ _ (by decide : (0 : Fin 2) ∉ (List.finRange 2).filter (· ∉ [1] ++ [0]))]
      unfold GatherDims.start
      rw [dif_neg (by decide : (0 : Fin 2) ∉ [1]), Nat.zero_add, Nat.add_zero]
      unfold GatherDims.batchCoord
      rw [dif_pos (List.mem_singleton.mpr rfl)]
      rfl
    | ⟨1, _⟩ =>
      apply Fin.ext
      show GatherDims.start _ (ix2 b u) idx 1 + GatherDims.batchCoord _ (ix2 b u) 1 + GatherDims.offCoord _ (ix2 b u) 1
        = min (idx (ix3 b u (0 : Fin 1))).toInt.toNat (C - 1)
      rw [GatherDims.batchCoord_eq_zero _ _ _ (by decide : (1 : Fin 2) ∉ [0]),
        GatherDims.offCoord_eq_zero _ _ _ (by decide : (1 : Fin 2) ∉ (List.finRange 2).filter (· ∉ [1] ++ [0]))]
      simp only [Nat.add_zero]
      unfold GatherDims.start
      rw [dif_pos (List.mem_singleton.mpr rfl)]
      show min (idx _).toInt.toNat (C - ss 1) = _
      rw [hsl]
      refine congrArg (fun k => min (idx k).toInt.toNat (C - 1)) ?_
      funext e
      match e with
      | ⟨0, _⟩ => exact Fin.ext rfl
      | ⟨1, _⟩ => exact Fin.ext rfl
      | ⟨2, _⟩ => exact Fin.ext rfl

/-- The row-wise gather at `(b, u)` when the word of row `b` is a column's position: the table at `(b, word)`. -/
theorem gather_rows (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1)
    (hC : 2 * C ≤ 2 ^ w) (h : (idx (ix3 b u (0 : Fin 1))).toNat < C) :
    Host.gather d x idx (ix2 b u) = x (ix2 b ⟨(idx (ix3 b u (0 : Fin 1))).toNat, h⟩) := by
  have hC0 : 0 < C := by omega
  rw [gather_rows_clamp d hoff hcoll hob hsb hsim hivd x idx b u hC0]
  refine congrArg x (congrArg (fun r => ix2 b r) (Fin.ext ?_))
  show min (idx (ix3 b u (0 : Fin 1))).toInt.toNat (C - 1) = (idx (ix3 b u (0 : Fin 1))).toNat
  rw [BitVec.toInt_eq_toNat_of_lt (by omega), Int.toNat_natCast]
  omega

end Cert.LibGatherRows

end
-- ==== Proof.RefSoftmax.lean ====
/-
  The reference's rows and their log-softmax, read at a flat row number and a class, at the ideal values.

  The reference moves the class axis last and flattens the volume to 4194304 rows of sixteen logits: entry (n, c) is
  the volume's logit of class c at the position row n names. Its log-softmax subtracts from each entry the row's
  maximum M and then the logarithm of the sum of the exponentials of the shifted row; for a row of real numbers that
  is the real number (x c − M) − log (∑ c', exp (x c' − M)).

  The flat number of entry (n, c) is 16·n + c; its quotients and remainders by the extents 16, 128, 128, 64 are c and
  the quotients and remainders of n by 128, 128, 64, which is how row n names its position. Each stage of the
  log-softmax is then read at row n whose sixteen entries are a row xr of reals: the maximum folded from −∞ is the
  row's maximum, the maximum with −∞ again is the same, the shifted entries are reals, the sum of their exponentials
  from 0 is `sumExp xr`, positive, so its logarithm is a real.
-/
import proofs.«428549_j26766236189461_3_alg».proof.Proof.RefRead
import proofs.«428549_j26766236189461_3_alg».proof.Proof.FocalSpec
import proofs.«428549_j26766236189461_3_alg».proof.Proof.FlatIndex

noncomputable section

namespace Cert.ReferenceIdeal.RefSoftmax

open Idealize.ShloMosaic Idealize.ShloMosaic.ValueIdx Cert.ReferenceIdeal Cert.ReferenceIdeal.ReadP Cert.FlatIndex

/-- The flat row (k, c) of the transposed volume, carried back through the flattening and the transposition, is the
    volume's index (batch, class, depth, row, column) of row k's position and class c. -/
private theorem idx_row (k : Fin 4194304) (c : Fin 16) :
    idx_main_v0 (idx_main_v1 (ix2 k c)) = (ix5 (pb k) c (pd k) (ph k) (pw k) : Cert.Focal.SX.Idx) := by
  have hk := k.isLt
  have hc := c.isLt
  funext a
  match a with
  | ⟨0, _⟩ =>
    apply Fin.ext
    show (k.val * 16 + c.val) / 16777216 = k.val / 1048576
    omega
  | ⟨1, _⟩ =>
    apply Fin.ext
    show (k.val * 16 + c.val) % 16 = c.val
    omega
  | ⟨2, _⟩ =>
    apply Fin.ext
    show (k.val * 16 + c.val) / 262144 % 64 = k.val / 16384 % 64
    omega
  | ⟨3, _⟩ =>
    apply Fin.ext
    show (k.val * 16 + c.val) / 2048 % 128 = k.val / 128 % 128
    omega
  | ⟨4, _⟩ =>
    apply Fin.ext
    show (k.val * 16 + c.val) / 16 % 128 = k.val % 128
    omega

/-- Entry (n, c) of the flattened logits is the volume's logit of class c at the position row n names. -/
theorem row_entry (X : Cert.Focal.SX.Idx → EReal) (k : Fin 4194304) (c : Fin 16) :
    val_main_v1 (F := Ideal) X (ix2 k c) = X (ix5 (pb k) c (pd k) (ph k) (pw k)) := by
  refine (val_main_v1_apply (F := Ideal) X (ix2 k c)).trans ((val_main_v0_apply (F := Ideal) X _).trans ?_)
  exact congrArg X (idx_row k c)

/-! ## Where the class-axis operations read -/

/-- Reducing the class axis of the [n, 16] rows away: the index put back at class c over row k is (k, c). -/
private theorem lift_row (hr : S4194304x16.Reduces [1] S4194304) (k : Fin 4194304) (c : Fin 16) :
    hr.lift (ix1 k) c = ix2 k c := by
  funext a
  match a with
  | ⟨0, _⟩ => exact Fin.ext rfl
  | ⟨1, _⟩ => exact Fin.ext rfl

/-- The row's maximum as a column: (k, 0) reads row k. -/
private theorem idx_v3 (k : Fin 4194304) : idx_main_call1_v3 (ix2 k (0 : Fin 1)) = ix1 k := by
  funext a
  match a with
  | ⟨0, _⟩ => exact Fin.ext rfl

/-- The column repeated along the classes: (k, c) reads (k, 0). -/
private theorem idx_v4 (k : Fin 4194304) (c : Fin 16) : idx_main_call1_v4 (ix2 k c) = ix2 k (0 : Fin 1) := by
  funext a
  match a with
  | ⟨0, _⟩ => exact Fin.ext rfl
  | ⟨1, _⟩ => exact Fin.ext rfl

/-- The sum over the classes at row k reads, at class c, the entry (k, c). -/
private theorem idx_v7 (k : Fin 4194304) (c : Fin 16) : idx_main_call1_v7 (ix1 k) c = ix2 k c := by
  funext a
  match a with
  | ⟨0, _⟩ => exact Fin.ext rfl
  | ⟨1, _⟩ => exact Fin.ext rfl

/-- The row's sum as a column: (k, 0) reads row k. -/
private theorem idx_v8 (k : Fin 4194304) : idx_main_call1_v8 (ix2 k (0 : Fin 1)) = ix1 k := by
  funext a
  match a with
  | ⟨0, _⟩ => exact Fin.ext rfl

/-- The logarithm's column repeated along the classes: (k, c) reads (k, 0). -/
private theorem idx_v10 (k : Fin 4194304) (c : Fin 16) : idx_main_call1_v10 (ix2 k c) = ix2 k (0 : Fin 1) := by
  funext a
  match a with
  | ⟨0, _⟩ => exact Fin.ext rfl
  | ⟨1, _⟩ => exact Fin.ext rfl

/-! ## One row: the sixteen entries of row k the reals xr -/

/-- The row's maximum, folded from −∞ over the classes. -/
theorem max0_apply (X : Cert.Focal.SX.Idx → EReal) (k : Fin 4194304) (xr : Fin 16 → ℝ)
    (hx : ∀ c : Fin 16, val_main_v1 (F := Ideal) X (ix2 k c) = ((xr c : ℝ) : EReal)) :
    val_main_call1_v0 (F := Ideal) X (ix1 k) = ((Cert.Focal.rowMax xr : ℝ) : EReal) := by
  have hr : S4194304x16.Reduces [1] S4194304 := by decide
  unfold val_main_call1_v0
  refine (Host.reduce_eq_fold_single FloatOps.maximumf _ _ _ hr _ (ix1 k)).trans ?_
  have hrow : (val_main_v1 (F := Ideal) X ∘ hr.lift (ix1 k)) = fun c : Fin 16 => ((xr c : ℝ) : EReal) := by
    funext c
    exact (congrArg (val_main_v1 (F := Ideal) X) (lift_row hr k c)).trans (hx c)
  rw [hrow, val_main_call1_cst_apply, Ideal.ofBits_def, Cert.Focal.ofBits_neg_inf]
  exact Cert.Focal.fold_max_coe xr

/-- Taking the maximum with −∞ once more changes nothing. -/
theorem max2_apply (X : Cert.Focal.SX.Idx → EReal) (k : Fin 4194304) (xr : Fin 16 → ℝ)
    (hx : ∀ c : Fin 16, val_main_v1 (F := Ideal) X (ix2 k c) = ((xr c : ℝ) : EReal)) :
    val_main_call1_v2 (F := Ideal) X (ix1 k) = ((Cert.Focal.rowMax xr : ℝ) : EReal) := by
  rw [val_main_call1_v2_apply, val_main_call1_v1_apply, val_main_call1_cst_0_apply, max0_apply X k xr hx,
    Ideal.maximumf_def, Ideal.ofBits_def, Cert.Focal.ofBits_neg_inf]
  exact max_bot_left _

/-- The shifted row: entry c minus the row's maximum. -/
theorem shift_apply (X : Cert.Focal.SX.Idx → EReal) (k : Fin 4194304) (xr : Fin 16 → ℝ)
    (hx : ∀ c : Fin 16, val_main_v1 (F := Ideal) X (ix2 k c) = ((xr c : ℝ) : EReal)) (c : Fin 16) :
    val_main_call1_v5 (F := Ideal) X (ix2 k c) = ((xr c - Cert.Focal.rowMax xr : ℝ) : EReal) := by
  rw [val_main_call1_v5_apply, val_main_call1_v4_apply, idx_v4, val_main_call1_v3_apply, idx_v3,
    max2_apply X k xr hx, hx c, Ideal.subf_def, EReal.coe_sub]

/-- The sum over the classes of the exponentials of the shifted row, from 0. -/
theorem sum_apply (X : Cert.Focal.SX.Idx → EReal) (k : Fin 4194304) (xr : Fin 16 → ℝ)
    (hx : ∀ c : Fin 16, val_main_v1 (F := Ideal) X (ix2 k c) = ((xr c : ℝ) : EReal)) :
    val_main_call1_v7 (F := Ideal) X (ix1 k) = ((Cert.Focal.sumExp xr : ℝ) : EReal) := by
  rw [val_main_call1_v7_apply, val_main_call1_cst_1_apply, Ideal.ofBits_def, Cert.Focal.ofBits_zero, zero_add]
  refine (Finset.sum_congr rfl (fun c _ => ?_)).trans
    (Cert.Focal.coe_sum Finset.univ fun c : Fin 16 => Real.exp (xr c - Cert.Focal.rowMax xr))
  rw [idx_v7, val_main_call1_v6_apply, shift_apply X k xr hx c, Ideal.hostUnary_exp_def, Ideal.exp_coe]

/-- Its logarithm, a real since the sum is positive, repeated along the classes. -/
theorem logsum_apply (X : Cert.Focal.SX.Idx → EReal) (k : Fin 4194304) (xr : Fin 16 → ℝ)
    (hx : ∀ c : Fin 16, val_main_v1 (F := Ideal) X (ix2 k c) = ((xr c : ℝ) : EReal)) (c : Fin 16) :
    val_main_call1_v10 (F := Ideal) X (ix2 k c) = ((Real.log (Cert.Focal.sumExp xr) : ℝ) : EReal) := by
  rw [val_main_call1_v10_apply, idx_v10, val_main_call1_v9_apply, val_main_call1_v8_apply, idx_v8,
    sum_apply X k xr hx, Ideal.hostUnary_log_def, Cert.Focal.log_sumExp]

/-- The log-softmax entry of a real row. -/
theorem logp_row (X : Cert.Focal.SX.Idx → EReal) (k : Fin 4194304) (xr : Fin 16 → ℝ)
    (hx : ∀ c : Fin 16, val_main_v1 (F := Ideal) X (ix2 k c) = ((xr c : ℝ) : EReal)) (c : Fin 16) :
    val_main_v10 (F := Ideal) X (ix2 k c)
      = (((xr c - Cert.Focal.rowMax xr) - Real.log (Cert.Focal.sumExp xr) : ℝ) : EReal) := by
  rw [val_main_v10_apply, shift_apply X k xr hx c, logsum_apply X k xr hx c, Ideal.subf_def, ← EReal.coe_sub]

/-- Entry (n, c) of the log-softmax of the flattened logits, for real logits. -/
theorem logp_apply (X : Cert.Focal.SX.Idx → EReal) (hfin : ∀ i, ∃ r : ℝ, X i = (r : EReal)) (k : Fin 4194304) (c : Fin 16) :
    val_main_v10 (F := Ideal) X (ix2 k c)
      = (((Cert.Focal.rowOf X (pb k) (pd k) (ph k) (pw k) c - Cert.Focal.rowMax (Cert.Focal.rowOf X (pb k) (pd k) (ph k) (pw k)))
          - Real.log (Cert.Focal.sumExp (Cert.Focal.rowOf X (pb k) (pd k) (ph k) (pw k))) : ℝ) : EReal) :=
  logp_row X k (Cert.Focal.rowOf X (pb k) (pd k) (ph k) (pw k))
    (fun c' => (row_entry X k c').trans (Cert.Focal.coe_rowOf X hfin (pb k) (pd k) (ph k) (pw k) c')) c

end Cert.ReferenceIdeal.RefSoftmax
end
-- ==== Proof.RefPoint.lean ====
/-
  The reference's per-row values, read at a flat row number, at the ideal values.

  The reference lays the volume out as 4194304 rows of sixteen logits (the class axis moved last) and the labels as
  4194304 words. When the logits are real and the labels are classes, row n's focal weight `(1 − x label) ^ 2.0` and
  its weighted cross-entropy `weight · (−log_softmax(x) label)` are the focal weight and focal loss term of the
  position that row n names: the gathers read the label's entry of the row (the label is in range, so neither the
  wrap of negative labels nor the out-of-range fill applies).
-/
import proofs.«428549_j26766236189461_3_alg».proof.Proof.RefRead
import proofs.«428549_j26766236189461_3_alg».proof.Proof.LibGatherRows
import proofs.«428549_j26766236189461_3_alg».proof.Proof.FocalSpec
import proofs.«428549_j26766236189461_3_alg».proof.Proof.FlatIndex
import proofs.«428549_j26766236189461_3_alg».proof.Proof.RefSoftmax
import Idealize.ShloMosaic.Lib.ReduceAll
import Idealize.ShloMosaic.Lib.StableHlo.Predicate

noncomputable section

namespace Cert.ReferenceIdeal.RefPoint

open Idealize.ShloMosaic Idealize.ShloMosaic.ValueIdx Cert.ReferenceIdeal Cert.ReferenceIdeal.ReadP Cert.FlatIndex

variable (X : Cert.Focal.SX.Idx → EReal) (Tg : Cert.Focal.ST.Idx → BitVec 32)

/-! ## The flat row number and the position it names -/

/-- The label word of flat row `n0`: the label at the position the row names. -/
private def lbl (n0 : Fin 4194304) : BitVec 32 := Tg (ix4 (pb n0) (pd n0) (ph n0) (pw n0))

/-- Entry n0 of the flattened labels is the label at the position row n0 names. -/
private theorem label_entry (n0 : Fin 4194304) : val_main_v2 (F := Ideal) Tg (ix1 n0) = lbl Tg n0 := by
  rw [val_main_v2_apply]
  refine congrArg Tg (funext fun a => ?_)
  match a with
  | ⟨0, _⟩ => rfl
  | ⟨1, _⟩ => rfl
  | ⟨2, _⟩ => rfl
  | ⟨3, _⟩ => rfl

/-- The labels as a column: entry (n0, 0) is the label of row n0. -/
private theorem label_col (n0 : Fin 4194304) (u : Fin 1) : val_main_v3 (F := Ideal) Tg (ix2 n0 u) = lbl Tg n0 := by
  rw [val_main_v3_apply]
  refine Eq.trans (congrArg (val_main_v2 (F := Ideal) Tg) (funext fun a => ?_)) (label_entry Tg n0)
  match a with
  | ⟨0, _⟩ => rfl

/-! ## A label word that is a class -/

/-- A word below 16 reads the same signed and unsigned. -/
private theorem toInt_of_lt16 {t : BitVec 32} (ht : t.toNat < 16) : t.toInt = (t.toNat : Int) :=
  BitVec.toInt_eq_toNat_of_lt (by omega)

/-- The wrap of negative indices leaves a class alone: it is not negative. -/
private theorem wrap_of_lt16 {t : BitVec 32} (ht : t.toNat < 16) (a : BitVec 32) :
    Scalar.select (IntOp.cmpi .slt t 0#32) a t = t := by
  unfold Scalar.select
  rw [if_neg]
  intro h
  have h' := IntOp.cmpi_slt.1 h
  rw [toInt_of_lt16 ht, show (0#32 : BitVec 32).toInt = 0 from by decide] at h'
  omega

/-- A class passes the bounds test 0 ≤ t ≤ 15. -/
private theorem inBounds_of_lt16 {t : BitVec 32} (ht : t.toNat < 16) :
    IntOp.andi (IntOp.cmpi .sge t 0#32) (IntOp.cmpi .sle t 15#32) = 1#1 := by
  refine IntOp.andi_eq_one.2 ⟨IntOp.cmpi_sge.2 ?_, IntOp.cmpi_sle.2 ?_⟩
  · rw [toInt_of_lt16 ht, show (0#32 : BitVec 32).toInt = 0 from by decide]; omega
  · rw [toInt_of_lt16 ht, show (15#32 : BitVec 32).toInt = 15 from by decide]; omega

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-! ## The gather's index column and its bounds mask -/

section Labels
variable (hlt : ∀ j, (Tg j).toNat < 16)
include hlt

/-- Every row's label is a class. -/
private theorem lbl_lt (n0 : Fin 4194304) : (lbl Tg n0).toNat < 16 := hlt _

/-- The wrapped index of row n0 is its label. -/
private theorem wrapped_col (n0 : Fin 4194304) (u : Fin 1) :
    val_main_call0_v4 (F := Ideal) Tg (ix2 n0 u) = lbl Tg n0 := by
  rw [val_main_call0_v4_apply, val_main_call0_v1_apply, label_col]
  exact wrap_of_lt16 (lbl_lt Tg hlt n0) _

/-- The index array the gather reads, at (n0, u, v), is the label of row n0. -/
private theorem start_idx (n0 : Fin 4194304) (u v : Fin 1) :
    val_main_call0_v5 (F := Ideal) Tg (ix3 n0 u v) = lbl Tg n0 := by
  rw [val_main_call0_v5_apply]
  refine Eq.trans (congrArg (val_main_call0_v4 (F := Ideal) Tg) (funext fun a => ?_)) (wrapped_col Tg hlt n0 0)
  have hu := u.isLt
  have hv := v.isLt
  match a with
  | ⟨0, _⟩ => apply Fin.ext; show ((n0.val * 1 + u.val) * 1 + v.val) / 1 = n0.val; omega
  | ⟨1, _⟩ => rfl

/-- The bounds mask is 1 everywhere. -/
private theorem mask_all (i : S4194304x1x1.Idx) : val_main_call0_v11 (F := Ideal) Tg i = 1#1 := by
  obtain ⟨a, b, c, rfl⟩ : ∃ (a : Fin 4194304) (b c : Fin 1), i = ix3 a b c := ⟨i 0, i 1, i 2, eq_ix3 i⟩
  rw [val_main_call0_v11_apply, val_main_call0_v7_apply, val_main_call0_v10_apply, start_idx Tg hlt]
  exact inBounds_of_lt16 (lbl_lt Tg hlt a)

/-- So is its reduction over the last axis. -/
private theorem mask_row (j : S4194304x1.Idx) : val_main_call0_v12 (F := Ideal) Tg j = 1#1 := by
  unfold val_main_call0_v12
  rw [Host.reduce_eq_foldl]
  exact foldl_andi_one _ (mask_all Tg hlt) _

end Labels

/-! ## The two gathers -/

/-- A selection whose condition holds is its first branch. -/
private theorem select_one {α : Type} (a b : α) : Scalar.select 1#1 a b = a := if_pos rfl

section Gathers
variable (hlt : ∀ j, (Tg j).toNat < 16)
include hlt

/-- A row-wise gather by the label column reads row n0 of the table at the class of row n0's label. -/
private theorem gather_lbl (x : S4194304x16.Idx → EReal) (n0 : Fin 4194304) (u : Fin 1) :
    Host.gather gather_S4194304x16_S4194304x1x1_S4194304x1_n_1_0_0_1_2_11 x (val_main_call0_v5 (F := Ideal) Tg) (ix2 n0 u)
      = x (ix2 n0 (Cert.Focal.lblOf Tg (pb n0) (pd n0) (ph n0) (pw n0))) := by
  have e5 := start_idx Tg hlt n0 u 0
  have h : (val_main_call0_v5 (F := Ideal) Tg (ix3 n0 u (0 : Fin 1))).toNat < 16 := by
    rw [e5]; exact lbl_lt Tg hlt n0
  refine (Cert.LibGatherRows.gather_rows gather_S4194304x16_S4194304x1x1_S4194304x1_n_1_0_0_1_2_11 rfl rfl rfl rfl rfl rfl x
    (val_main_call0_v5 (F := Ideal) Tg) n0 u (by norm_num) h).trans ?_
  refine congrArg (fun k => x (ix2 n0 k)) (Fin.ext ?_)
  show (val_main_call0_v5 (F := Ideal) Tg (ix3 n0 u (0 : Fin 1))).toNat = (lbl Tg n0).toNat % 16
  rw [e5, Nat.mod_eq_of_lt (lbl_lt Tg hlt n0)]

/-- The first gather picks the raw logit of the label. -/
private theorem picked_logit (n0 : Fin 4194304) :
    val_main_v5 (F := Ideal) X Tg (ix1 n0)
      = X (ix5 (pb n0) (Cert.Focal.lblOf Tg (pb n0) (pd n0) (ph n0) (pw n0)) (pd n0) (ph n0) (pw n0)) := by
  rw [val_main_v5_apply, val_main_v4_apply, mask_row Tg hlt, select_one]
  unfold val_main_call0_v13
  have hi : idx_main_v5 (ix1 n0) = ix2 n0 (0 : Fin 1) := funext fun a => by
    match a with
    | ⟨0, _⟩ => apply Fin.ext; show n0.val / 1 = n0.val; omega
    | ⟨1, _⟩ => rfl
  rw [hi, gather_lbl Tg hlt, Cert.ReferenceIdeal.RefSoftmax.row_entry]

/-- The second gather picks the log-probability of the label. -/
private theorem picked_logp (n0 : Fin 4194304) :
    val_main_v13 (F := Ideal) X Tg (ix1 n0)
      = val_main_v10 (F := Ideal) X (ix2 n0 (Cert.Focal.lblOf Tg (pb n0) (pd n0) (ph n0) (pw n0))) := by
  rw [val_main_v13_apply, val_main_v12_apply]
  have e12 : val_main_call2_v12 (F := Ideal) Tg = val_main_call0_v12 (F := Ideal) Tg := rfl
  have e5 : val_main_call2_v5 (F := Ideal) Tg = val_main_call0_v5 (F := Ideal) Tg := rfl
  rw [e12, mask_row Tg hlt, select_one]
  unfold val_main_call2_v13
  have hi : idx_main_v13 (ix1 n0) = ix2 n0 (0 : Fin 1) := funext fun a => by
    match a with
    | ⟨0, _⟩ => apply Fin.ext; show n0.val / 1 = n0.val; omega
    | ⟨1, _⟩ => rfl
  rw [hi, e5, gather_lbl Tg hlt]

end Gathers

/-! ## The weight and the loss term of a row -/

section Rows
variable (hfin : ∀ i, ∃ r : ℝ, X i = (r : EReal)) (hlt : ∀ j, (Tg j).toNat < 16)
include hfin hlt

/-- The focal weight of flat row n0: one minus the label's raw logit, to the power 2.0, is the square. -/
private theorem weight_row (n0 : Fin 4194304) :
    val_main_v9 (F := Ideal) X Tg (ix1 n0)
      = ((Cert.Focal.FW X Tg (pb n0) (pd n0) (ph n0) (pw n0) : ℝ) : EReal) := by
  rw [val_main_v9_apply, val_main_v7_apply, val_main_v6_apply, val_main_cst_apply, val_main_v8_apply,
    val_main_cst_0_apply, picked_logit X Tg hlt n0, Cert.Focal.coe_rowOf X hfin]
  rw [Ideal.hostPowf_def, Ideal.subf_def, Ideal.ofBits_def, Ideal.ofBits_def, Cert.Focal.ofBits_one, Cert.Focal.ofBits_two,
    ← EReal.coe_one, ← EReal.coe_sub, Cert.Focal.pow_two_coe]
  rfl

/-- The loss term of flat row n0: the weight times the negated log-probability of the label, and
    −((x t − M) − log S) = (log S + M) − x t. -/
private theorem loss_row (n0 : Fin 4194304) :
    val_main_v15 (F := Ideal) X Tg (ix1 n0)
      = ((Cert.Focal.FL X Tg (pb n0) (pd n0) (ph n0) (pw n0) : ℝ) : EReal) := by
  rw [val_main_v15_apply, val_main_v14_apply, weight_row X Tg hfin hlt n0, picked_logp X Tg hlt n0,
    Cert.ReferenceIdeal.RefSoftmax.logp_apply X hfin]
  rw [Ideal.mulf_def, Ideal.hostNegf_def, Ideal.negf_def, ← EReal.coe_neg, ← EReal.coe_mul]
  refine congrArg (fun r : ℝ => (r : EReal)) ?_
  unfold Cert.Focal.FL Cert.Focal.FW Cert.Focal.fl Cert.Focal.lse
  ring

end Rows

/-- Row n's focal weight is the focal weight at the position it names. -/
theorem weight_apply (X : Cert.Focal.SX.Idx → EReal) (Tg : Cert.Focal.ST.Idx → BitVec 32)
    (hfin : ∀ i, ∃ r : ℝ, X i = (r : EReal)) (hlt : ∀ j, (Tg j).toNat < 16) (n : S4194304.Idx) :
    val_main_v9 (F := Ideal) X Tg n
      = ((Cert.Focal.FW X Tg (pb (n 0)) (pd (n 0)) (ph (n 0)) (pw (n 0)) : ℝ) : EReal) :=
  (congrArg (val_main_v9 (F := Ideal) X Tg) (eq_ix1 n)).trans (weight_row X Tg hfin hlt (n 0))

/-- Row n's weighted cross-entropy is the focal loss term at the position it names. -/
theorem loss_apply (X : Cert.Focal.SX.Idx → EReal) (Tg : Cert.Focal.ST.Idx → BitVec 32)
    (hfin : ∀ i, ∃ r : ℝ, X i = (r : EReal)) (hlt : ∀ j, (Tg j).toNat < 16) (n : S4194304.Idx) :
    val_main_v15 (F := Ideal) X Tg n
      = ((Cert.Focal.FL X Tg (pb (n 0)) (pd (n 0)) (ph (n 0)) (pw (n 0)) : ℝ) : EReal) :=
  (congrArg (val_main_v15 (F := Ideal) X Tg) (eq_ix1 n)).trans (loss_row X Tg hfin hlt (n 0))

end Cert.ReferenceIdeal.RefPoint

end
-- ==== Proof.RefValue.lean ====
/-
  The reference's result: the total focal loss over the total focal weight.

  Each row's loss term is divided by the total weight and the quotients are summed; over real terms that is the
  total loss divided by the total weight, and when the total weight is zero every term and the total are `0 / 0`.
-/
import proofs.«428549_j26766236189461_3_alg».proof.Proof.RefPoint

noncomputable section

namespace Cert.ReferenceIdeal.RefValue

open Idealize.ShloMosaic Idealize.ShloMosaic.ValueIdx Cert.ReferenceIdeal Cert.ReferenceIdeal.ReadP Cert.FlatIndex

/-- The arithmetic of the reference's last five operations, apart from the program: with every row's weight and loss
    term the real focal weight and focal loss term of the row's position, the total weight (a sum started from 0) is
    the real total, each row's quotient is its loss term over that total, and the sum of the quotients (again started
    from 0) is the total loss over the total weight. -/
private theorem quotient_sum (X : Cert.Focal.SX.Idx → EReal) (Tg : Cert.Focal.ST.Idx → BitVec 32)
    (v9 v15 v17 v18 : (⟨1, ![4194304]⟩ : Shape).Idx → EReal) (z1 z2 v16 : EReal)
    (hz1 : z1 = 0) (hz2 : z2 = 0)
    (h9 : ∀ n, v9 n = ((Cert.Focal.FW X Tg (pb (n 0)) (pd (n 0)) (ph (n 0)) (pw (n 0)) : ℝ) : EReal))
    (h15 : ∀ n, v15 n = ((Cert.Focal.FL X Tg (pb (n 0)) (pd (n 0)) (ph (n 0)) (pw (n 0)) : ℝ) : EReal))
    (h16 : v16 = z1 + ∑ j, v9 j)
    (h17 : ∀ j, v17 j = v16)
    (h18 : ∀ j, v18 j = Ideal.div (v15 j) (v17 j)) :
    z2 + ∑ j, v18 j = Cert.Focal.result X Tg := by
  -- the rows' weights and loss terms as real functions of the flat row number
  let g : (⟨1, ![4194304]⟩ : Shape).Idx → ℝ := fun n => Cert.Focal.FW X Tg (pb (n 0)) (pd (n 0)) (ph (n 0)) (pw (n 0))
  let f : (⟨1, ![4194304]⟩ : Shape).Idx → ℝ := fun n => Cert.Focal.FL X Tg (pb (n 0)) (pd (n 0)) (ph (n 0)) (pw (n 0))
  -- summed over the flat rows they are the totals over the volume
  have hW : ∑ n, g n = Cert.Focal.totFW X Tg := sum_flat (fun b dd h w => Cert.Focal.FW X Tg b dd h w)
  have hL : ∑ n, f n = Cert.Focal.totFL X Tg := sum_flat (fun b dd h w => Cert.Focal.FL X Tg b dd h w)
  -- the total weight the reference computes is the real total
  have h16' : v16 = ((∑ n, g n : ℝ) : EReal) := by
    rw [h16, hz1, zero_add, Finset.sum_congr rfl (fun n _ => h9 n)]
    exact Cert.Focal.coe_sum Finset.univ g
  -- each row's quotient
  have hterm : ∀ j, v18 j = Ideal.div ((f j : ℝ) : EReal) ((∑ n, g n : ℝ) : EReal) := fun j => by
    rw [h18 j, h15 j, h17 j, h16']
  haveI : Nonempty (⟨1, ![4194304]⟩ : Shape).Idx := ⟨ix1 ⟨0, by omega⟩⟩
  rw [hz2, zero_add, Finset.sum_congr rfl (fun j _ => hterm j),
    Cert.Focal.sum_div f g (fun n => Cert.Focal.FW_nonneg X Tg _ _ _ _) (fun n => Cert.Focal.FL_eq_zero_of_FW X Tg _ _ _ _),
    hW, hL]
  rfl

/-- The reference's result, for real logits and labels that are classes, is the focal loss. -/
theorem ref_value (X : Cert.Focal.SX.Idx → EReal) (Tg : Cert.Focal.ST.Idx → BitVec 32)
    (hfin : ∀ i, ∃ r : ℝ, X i = (r : EReal)) (hlt : ∀ j, (Tg j).toNat < 16) :
    val_main_v19 (F := Ideal) X Tg = fun _ => Cert.Focal.result X Tg := by
  funext i
  -- the result is the second sum, started from the constant 0, of the rows' quotients
  refine (val_main_v19_apply X Tg i).trans ?_
  -- the two sums' starting constants are the real 0
  have hz : ∀ k, val_main_cst_1 (F := Ideal) k = (0 : EReal) := fun k =>
    (val_main_cst_1_apply (F := Ideal) k).trans ((Ideal.ofBits_def _).trans Cert.Focal.ofBits_zero)
  have hz' : ∀ k, val_main_cst_2 (F := Ideal) k = (0 : EReal) := fun k =>
    (val_main_cst_2_apply (F := Ideal) k).trans ((Ideal.ofBits_def _).trans Cert.Focal.ofBits_zero)
  exact quotient_sum X Tg
    (val_main_v9 (F := Ideal) X Tg) (val_main_v15 (F := Ideal) X Tg)
    (val_main_v17 (F := Ideal) X Tg) (val_main_v18 (F := Ideal) X Tg)
    _ _ (val_main_v16 (F := Ideal) X Tg ix0)
    (hz _) (hz' _)
    (RefPoint.weight_apply X Tg hfin hlt) (RefPoint.loss_apply X Tg hfin hlt)
    -- the total weight: the first sum, started from the constant 0, read at the scalar's one index
    (val_main_v16_apply X Tg ix0)
    -- the total weight broadcast to every row
    (fun j => (val_main_v17_apply (F := Ideal) X Tg j).trans (congrArg (val_main_v16 (F := Ideal) X Tg) (eq_ix0 _)))
    -- a row's quotient is the host's division, at the ideal values the extended reals' division
    (fun j => (val_main_v18_apply (F := Ideal) X Tg j).trans (Ideal.hostDivf_def _ _))

end Cert.ReferenceIdeal.RefValue

end
-- ==== Proof.PreDecode.lean ====
/-
  What the precondition says of the inputs: every logit is a real number and every label is a class.

  The precondition is the conjunction of three whole-array tests: |x| < +∞ at every logit, 0 ≤ t and t ≤ 15 (as
  signed words) at every label. An extended real whose absolute value is below +∞ is a real; a word that is
  non-negative and at most 15 as a signed integer has an unsigned value below 16.
-/
import proofs.«428549_j26766236189461_3_alg».proof.Pre_finite_inputs
import proofs.«428549_j26766236189461_3_alg».proof.Proof.Gen.Pre_finite_inputs
import proofs.«428549_j26766236189461_3_alg».proof.Proof.FocalSpec
import Idealize.ShloMosaic.Lib.ReduceAll
import Idealize.ShloMosaic.Lib.StableHlo.Predicate

noncomputable section

namespace Cert.PreDecode

open Idealize.ShloMosaic Idealize.ShloMosaic.ValueIdx

/-- The shape of a scalar has a single index. -/
private instance subsingleton_scalar_idx : Subsingleton Cert.Pre_finite_inputs.S_.Idx :=
  ⟨fun a b => funext fun d => d.elim0⟩

/-- The word `0x7F800000` is the single-precision +∞. -/
private theorem inf_bits : Ideal.ofBits .f32 0x7F800000#32 = (⊤ : EReal) := by
  simp [Ideal.ofBits, Ideal.ieee]

/-- A truth word built from a decidable proposition is 1 only if the proposition holds. -/
private theorem of_ofBool_decide {p : Prop} [Decidable p] (h : BitVec.ofBool (decide p) = 1#1) : p := by
  by_cases hp : p
  · exact hp
  · rw [decide_eq_false hp] at h
    exact absurd h (by decide)

/-- An extended real whose absolute value `max x (−x)` is below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- A 32-bit word that is between 0 and 15 as a signed integer is below 16 as an unsigned one. -/
private theorem toNat_lt_of_signed (t : BitVec 32) (h0 : (0#32 : BitVec 32).toInt ≤ t.toInt)
    (h15 : t.toInt ≤ (15#32 : BitVec 32).toInt) : t.toNat < 16 := by
  have e0 : (0#32 : BitVec 32).toInt = 0 := by decide
  have e15 : (15#32 : BitVec 32).toInt = 15 := by decide
  rw [e0] at h0
  rw [e15] at h15
  have hlt := t.isLt
  rw [BitVec.toInt_eq_toNat_cond] at h0 h15
  split at h0 <;> omega

/-- Under the precondition every logit is real and every label is below 16. -/
theorem decode [Cert.Pre_finite_inputs.Facts] (X : Cert.Focal.SX.Idx → EReal) (Tg : Cert.Focal.ST.Idx → BitVec 32)
    (h : Cert.Pre_finite_inputs.fn (F := Ideal) X Tg = fun _ => 1#1) :
    (∀ i, ∃ r : ℝ, X i = (r : EReal)) ∧ (∀ j, (Tg j).toNat < 16) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun j => ?_⟩
  · have e := Host.reduce_andi_all _ _ _ _ _ h1 i
    change Ideal.cmp .olt (max (X i) (-(X i))) (Ideal.ofBits .f32 0x7F800000#32) = 1#1 at e
    rw [inf_bits] at e
    exact real_of_abs_lt_top (X i) (of_ofBool_decide e)
  · have e2 := Host.reduce_andi_all _ _ _ _ _ h2 j
    have e3 := Host.reduce_andi_all _ _ _ _ _ h3 j
    change IntOp.cmpi .sge (Tg j) 0#32 = 1#1 at e2
    change IntOp.cmpi .sle (Tg j) 15#32 = 1#1 at e3
    exact toNat_lt_of_signed (Tg j) (IntOp.cmpi_sge.1 e2) (IntOp.cmpi_sle.1 e3)

end Cert.PreDecode

end
-- ==== Proof.lean ====
/-
  The focal loss kernel against its reference, over the extended reals.

  Both programs compute, for a [4, 16, 64, 128, 128] volume of logits and a [4, 64, 128, 128] volume of labels, the
  focal loss (∑ fl) / (∑ fw) over all positions, where at a position with row of logits x, maximum M and label t
      fw = (1 − x t)²,     fl = fw · (log (∑ c, exp (x c − M)) + M − x t).
  The kernel walks the volume tile by tile (4 depths at a time), finds x t by a one-hot sum over the shifted row and
  adds M back, accumulates the tiles' totals per batch entry on 128 lanes, and divides the two lane-sums; the reference
  gathers x t and −log_softmax(x) t row by row, divides each row's term by the total weight and sums. Under the
  precondition — every logit finite, every label a class in 0 … 15 — every quantity is a real number, so the sums
  regroup, the factor 128 cancels, and a sum of quotients by a common divisor is the quotient of the sum (at a zero
  total weight both sides are the same junk value of 0 / 0). A label outside 0 … 15 is outside the reference's own
  domain (it wraps a negative label and fills an out-of-range one with NaN), where the kernel clamps instead: that is
  why the labels' range is part of the precondition.

  The three frames are the generated frame certificates of the two kernel programs and the reference's run with its
  result dropped; the idealization rewrote nothing, so `preserves` is trivial.
-/
import proofs.«428549_j26766236189461_3_alg».proof.Defs
import proofs.«428549_j26766236189461_3_alg».proof.Proof.Gen.Kernel
import proofs.«428549_j26766236189461_3_alg».proof.Proof.Gen.Kernel.Frame
import proofs.«428549_j26766236189461_3_alg».proof.Proof.Gen.KernelIdeal
import proofs.«428549_j26766236189461_3_alg».proof.Proof.Gen.KernelIdeal.Frame
import proofs.«428549_j26766236189461_3_alg».proof.Proof.Gen.ReferenceIdeal
import proofs.«428549_j26766236189461_3_alg».proof.Proof.Gen.Pre_finite_inputs
import proofs.«428549_j26766236189461_3_alg».proof.Proof.KernelTail
import proofs.«428549_j26766236189461_3_alg».proof.Proof.RefRunStages
import proofs.«428549_j26766236189461_3_alg».proof.Proof.RefValue
import proofs.«428549_j26766236189461_3_alg».proof.Proof.PreDecode
import Idealize.ShloMosaic.Adequacy
import Idealize.ShloMosaic.Init

noncomputable section

namespace Cert.Proof

open Idealize.ShloMosaic Idealize.SL.Sem

namespace FocalClaims

/-- The word-level kernel runs and keeps its arguments: its generated frame certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Stages.run (F := Ideal) m ρ)

/-- From memories agreeing on the logits and the labels, both programs end at the focal loss of those arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  have hd := fun c : Dev Cert.KernelIdeal.nD =>
    Cert.PreDecode.decode
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (hpre c)
  refine ⟨fun c => fun _ => Cert.Focal.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact Cert.KernelIdeal.Tail.run m ρ (fun c => (hd c).1) (fun c => (hd c).2)
  · refine (θ_run Cert.ReferenceIdeal.defs _ _).mono (fun _ h c => ⟨(h c).1.trans ?_, (h c).2⟩)
      (Cert.ReferenceIdeal.Stages.run (F := Ideal) m' ρ')
    rw [(hagree c).1, (hagree c).2]
    exact Cert.ReferenceIdeal.RefValue.ref_value _ _ (hd c).1 (hd c).2

end FocalClaims

theorem claim : Cert.Claim :=
  ⟨Cert.Kernel.Gen.facts, Cert.KernelIdeal.Gen.facts, Cert.ReferenceIdeal.Gen.facts, Cert.Pre_finite_inputs.Gen.facts,
    FocalClaims.frame_k, FocalClaims.frame_ki, FocalClaims.frame_ri, trivial, FocalClaims.algebraic⟩

end Cert.Proof

end
